-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x255 : Shape := ⟨2, ![1024, 255]⟩
abbrev S255 : Shape := ⟨1, ![255]⟩
abbrev S256x128 : Shape := ⟨2, ![256, 128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x255 : S_.BroadcastsInDim S1024x255 (![] : Fin 0 → Fin S1024x255.rank)
  reducesTo_S1024x255_S_d0_1 : S1024x255.ReducesTo [0, 1] S_
  bcast_S_S255 : S_.BroadcastsInDim S255 (![] : Fin 0 → Fin S255.rank)
  reducesTo_S255_S_d0 : S255.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S65536x1024 .f32) (main_arg1 : FVec F S1024x255 .f32) (main_arg2 : FVec F S255 .f32) (main_arg3 : FVec F S256x128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x255 .f32 := Host.absf main_arg1
  let main_cst_0 : FVec F S_ .f32 := constant S_ .f32 0x7F800000#32
  let main_v5 : FVec F S1024x255 .f32 := broadcastInDim S1024x255 ![] bcast_S_S1024x255 main_cst_0
  let main_v6 : IVec S1024x255 1 := cmpf .olt main_v4 main_v5
  let main_c_1 : IVec S_ 1 := constantI S_ 1 1#1
  let main_v7 : IVec S_ 1 := (fun x v => Host.reduce IntOp.andi x v reducesTo_S1024x255_S_d0_1 h_S_) main_v6 main_c_1
  let main_v8 : IVec S_ 1 := andi main_v3 main_v7
  let main_v9 : FVec F S255 .f32 := Host.absf main_arg2
  let main_cst_2 : FVec F S_ .f32 := constant S_ .f32 0x7F800000#32
  let main_v10 : FVec F S255 .f32 := broadcastInDim S255 ![] bcast_S_S255 main_cst_2
  let main_v11 : IVec S255 1 := cmpf .olt main_v9 main_v10
  let main_c_3 : IVec S_ 1 := constantI S_ 1 1#1
  let main_v12 : IVec S_ 1 := (fun x v => Host.reduce IntOp.andi x v reducesTo_S255_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S65536x1024 : Shape := ⟨2, ![65536, 1024]⟩
abbrev S1024x255 : Shape := ⟨2, ![1024, 255]⟩
abbrev S255 : Shape := ⟨1, ![255]⟩
abbrev S256x128 : Shape := ⟨2, ![256, 128]⟩
abbrev S1x255 : Shape := ⟨2, ![1, 255]⟩
abbrev S65536x128 : Shape := ⟨2, ![65536, 128]⟩
abbrev S32x1x255 : Shape := ⟨3, ![32, 1, 255]⟩
abbrev S2048x1024 : Shape := ⟨2, ![2048, 1024]⟩
abbrev S2048x128 : Shape := ⟨2, ![2048, 128]⟩
abbrev S1x1x255 : Shape := ⟨3, ![1, 1, 255]⟩
abbrev S2048x255 : Shape := ⟨2, ![2048, 255]⟩
abbrev S2048x1 : Shape := ⟨2, ![2048, 1]⟩
abbrev S2048x1x1 : Shape := ⟨3, ![2048, 1, 1]⟩
abbrev S2048x1x2 : Shape := ⟨3, ![2048, 1, 2]⟩
abbrev S2048x2 : Shape := ⟨2, ![2048, 2]⟩
abbrev S2048x2x1 : Shape := ⟨3, ![2048, 2, 1]⟩
abbrev S2048x2x2 : Shape := ⟨3, ![2048, 2, 2]⟩
abbrev S2048x4 : Shape := ⟨2, ![2048, 4]⟩
abbrev S2048x4x1 : Shape := ⟨3, ![2048, 4, 1]⟩
abbrev S2048x4x2 : Shape := ⟨3, ![2048, 4, 2]⟩
abbrev S2048x8 : Shape := ⟨2, ![2048, 8]⟩
abbrev S2048x8x1 : Shape := ⟨3, ![2048, 8, 1]⟩
abbrev S2048x8x2 : Shape := ⟨3, ![2048, 8, 2]⟩
abbrev S2048x16 : Shape := ⟨2, ![2048, 16]⟩
abbrev S2048x16x1 : Shape := ⟨3, ![2048, 16, 1]⟩
abbrev S2048x16x2 : Shape := ⟨3, ![2048, 16, 2]⟩
abbrev S2048x32 : Shape := ⟨2, ![2048, 32]⟩
abbrev S2048x32x1 : Shape := ⟨3, ![2048, 32, 1]⟩
abbrev S2048x32x2 : Shape := ⟨3, ![2048, 32, 2]⟩
abbrev S2048x64 : Shape := ⟨2, ![2048, 64]⟩
abbrev S2048x64x1 : Shape := ⟨3, ![2048, 64, 1]⟩
abbrev S2048x64x2 : Shape := ⟨3, ![2048, 64, 2]⟩
abbrev S2048x128x1 : Shape := ⟨3, ![2048, 128, 1]⟩
abbrev S2048x128x2 : Shape := ⟨3, ![2048, 128, 2]⟩
abbrev S2048x256 : Shape := ⟨2, ![2048, 256]⟩
abbrev S_ : Shape := ⟨0, ![]⟩
abbrev S1 : Shape := ⟨1, ![1]⟩
abbrev S2 : Shape := ⟨1, ![2]⟩
abbrev S4 : Shape := ⟨1, ![4]⟩
abbrev S8 : Shape := ⟨1, ![8]⟩
abbrev S16 : Shape := ⟨1, ![16]⟩
abbrev S32 : Shape := ⟨1, ![32]⟩
abbrev S64 : Shape := ⟨1, ![64]⟩
abbrev S128 : Shape := ⟨1, ![128]⟩

abbrev nBuf : Space → Nat
  | .hbm => 36
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x255, .f32⟩
  | .hbm, ⟨2, _⟩ => ⟨S255, .f32⟩
  | .hbm, ⟨3, _⟩ => ⟨S256x128, .f32⟩
  | .hbm, ⟨4, _⟩ => ⟨S1x255, .f32⟩
  | .hbm, ⟨5, _⟩ => ⟨S65536x128, .f32⟩
  | .hbm, ⟨6, _⟩ => ⟨S32x1x255, .f32⟩
  | .hbm, ⟨7, _⟩ => ⟨S_, .f32⟩
  | .hbm, ⟨8, _⟩ => ⟨S1x255, .f32⟩
  | .hbm, ⟨9, _⟩ => ⟨S255, .f32⟩
  | .hbm, ⟨10, _⟩ => ⟨S_, .f32⟩
  | .hbm, ⟨11, _⟩ => ⟨S255, .f32⟩
  | .hbm, ⟨12, _⟩ => ⟨S255, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S2, .f32⟩
  | .hbm, ⟨17, _⟩ => ⟨S_, .f32⟩
  | .hbm, ⟨18, _⟩ => ⟨S4, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S128, .f32⟩
  | .hbm, ⟨29, _⟩ => ⟨S255, .f32⟩
  | .hbm, ⟨30, _⟩ => ⟨S_, .f32⟩
  | .hbm, ⟨31, _⟩ => ⟨S255, .f32⟩
  | .hbm, ⟨32, _⟩ => ⟨S255, .f32⟩
  | .hbm, ⟨33, _⟩ => ⟨S255, .f32⟩
  | .hbm, ⟨34, _⟩ => ⟨S_, .f32⟩
  | .hbm, ⟨35, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S1024x255, .f32⟩
  | .local _ .vmem, ⟨3, _⟩ => ⟨S1x255, .f32⟩
  | .local _ .vmem, ⟨4, _⟩ => ⟨S256x128, .f32⟩
  | .local _ .vmem, ⟨5, _⟩ => ⟨S2048x128, .f32⟩
  | .local _ .vmem, ⟨6, _⟩ => ⟨S2048x128, .f32⟩
  | .local _ .vmem, ⟨7, _⟩ => ⟨S1x1x255, .f32⟩
  | .local _ .vmem, ⟨8, _⟩ => ⟨S1x1x255, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_cst_5 : Ref sig .tc := ⟨.hbm, 21, rfl⟩
abbrev main_v10 : Ref sig .tc := ⟨.hbm, 22, rfl⟩
abbrev main_cst_6 : Ref sig .tc := ⟨.hbm, 23, rfl⟩
abbrev main_v11 : Ref sig .tc := ⟨.hbm, 24, rfl⟩
abbrev main_cst_7 : Ref sig .tc := ⟨.hbm, 25, rfl⟩
abbrev main_v12 : Ref sig .tc := ⟨.hbm, 26, rfl⟩
abbrev main_cst_8 : Ref sig .tc := ⟨.hbm, 27, rfl⟩
abbrev main_v13 : Ref sig .tc := ⟨.hbm, 28, rfl⟩
abbrev main_v14 : Ref sig .tc := ⟨.hbm, 29, rfl⟩
abbrev main_cst_9 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_10 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x255 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x255 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x255 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S255_S1x255 : S255.ShapeCasts S1x255
  inb_S2048x1024_S2048x1024_0_0 : ∀ a, (![0, 0] : Fin 2 → Nat) a + S2048x1024.size a ≤ S2048x1024.size a
  h_S2048x1024 : 0 < S2048x1024.numel
  inb_S1024x255_S1024x255_0_0 : ∀ a, (![0, 0] : Fin 2 → Nat) a + S1024x255.size a ≤ S1024x255.size a
  h_S1024x255 : 0 < S1024x255.numel
  bitsLt_bf16_f32 : FTy.bits .bf16 < FTy.bits .f32
  inb_S1x255_S1x255_0_0 : ∀ a, (![0, 0] : Fin 2 → Nat) a + S1x255.size a ≤ S1x255.size a
  h_S1x255 : 0 < S1x255.numel
  shapeCasts_S1x255_S1x255 : S1x255.ShapeCasts S1x255
  broadcasts_S1x255_S2048x255 : S1x255.Broadcasts S2048x255
  reduces_S2048x255_S255 : S2048x255.Reduces [0] S255
  shapeCasts_S1x255_S1x1x255 : S1x255.ShapeCasts S1x1x255
  inb_S1x1x255_S1x1x255_0_0_0 : ∀ a, (![0, 0, 0] : Fin 3 → Nat) a + S1x1x255.size a ≤ S1x1x255.size a
  h_S1x1x255 : 0 < S1x1x255.numel
  slices_S2048x255_o0_0_S2048x1 : S2048x255.Slices ![0, 0] S2048x1
  shapeCasts_S2048x1_S2048x1x1 : S2048x1.ShapeCasts S2048x1x1
  concatenates_S2048x1x1_S2048x1x1_S2048x1x2_d2 : Shape.Concatenates [S2048x1x1, S2048x1x1] S2048x1x2 2
  shapeCasts_S2048x1x2_S2048x2 : S2048x1x2.ShapeCasts S2048x2
  slices_S2048x255_o0_1_S2048x2 : S2048x255.Slices ![0, 1] S2048x2
  shapeCasts_S2048x2_S2048x2x1 : S2048x2.ShapeCasts S2048x2x1
  concatenates_S2048x2x1_S2048x2x1_S2048x2x2_d2 : Shape.Concatenates [S2048x2x1, S2048x2x1] S2048x2x2 2
  shapeCasts_S2048x2x2_S2048x4 : S2048x2x2.ShapeCasts S2048x4
  slices_S2048x255_o0_3_S2048x4 : S2048x255.Slices ![0, 3] S2048x4
  shapeCasts_S2048x4_S2048x4x1 : S2048x4.ShapeCasts S2048x4x1
  concatenates_S2048x4x1_S2048x4x1_S2048x4x2_d2 : Shape.Concatenates [S2048x4x1, S2048x4x1] S2048x4x2 2
  shapeCasts_S2048x4x2_S2048x8 : S2048x4x2.ShapeCasts S2048x8
  slices_S2048x255_o0_7_S2048x8 : S2048x255.Slices ![0, 7] S2048x8
  shapeCasts_S2048x8_S2048x8x1 : S2048x8.ShapeCasts S2048x8x1
  concatenates_S2048x8x1_S2048x8x1_S2048x8x2_d2 : Shape.Concatenates [S2048x8x1, S2048x8x1] S2048x8x2 2
  shapeCasts_S2048x8x2_S2048x16 : S2048x8x2.ShapeCasts S2048x16
  slices_S2048x255_o0_15_S2048x16 : S2048x255.Slices ![0, 15] S2048x16
  shapeCasts_S2048x16_S2048x16x1 : S2048x16.ShapeCasts S2048x16x1
  concatenates_S2048x16x1_S2048x16x1_S2048x16x2_d2 : Shape.Concatenates [S2048x16x1, S2048x16x1] S2048x16x2 2
  shapeCasts_S2048x16x2_S2048x32 : S2048x16x2.ShapeCasts S2048x32
  slices_S2048x255_o0_31_S2048x32 : S2048x255.Slices ![0, 31] S2048x32
  shapeCasts_S2048x32_S2048x32x1 : S2048x32.ShapeCasts S2048x32x1
  concatenates_S2048x32x1_S2048x32x1_S2048x32x2_d2 : Shape.Concatenates [S2048x32x1, S2048x32x1] S2048x32x2 2
  shapeCasts_S2048x32x2_S2048x64 : S2048x32x2.ShapeCasts S2048x64
  slices_S2048x255_o0_63_S2048x64 : S2048x255.Slices ![0, 63] S2048x64
  shapeCasts_S2048x64_S2048x64x1 : S2048x64.ShapeCasts S2048x64x1
  concatenates_S2048x64x1_S2048x64x1_S2048x64x2_d2 : Shape.Concatenates [S2048x64x1, S2048x64x1] S2048x64x2 2
  shapeCasts_S2048x64x2_S2048x128 : S2048x64x2.ShapeCasts S2048x128
  slices_S2048x255_o0_127_S2048x128 : S2048x255.Slices ![0, 127] S2048x128
  shapeCasts_S2048x128_S2048x128x1 : S2048x128.ShapeCasts S2048x128x1
  concatenates_S2048x128x1_S2048x128x1_S2048x128x2_d2 : Shape.Concatenates [S2048x128x1, S2048x128x1] S2048x128x2 2
  shapeCasts_S2048x128x2_S2048x256 : S2048x128x2.ShapeCasts S2048x256
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  reducesTo_S32x1x255_S1x255_d0 : S32x1x255.ReducesTo [0] S1x255
  h_S_ : 0 < S_.numel
  shapeCasts_S1x255_S255 : S1x255.ShapeCasts S255
  bcast_S_S255 : S_.BroadcastsInDim S255 (![] : Fin 0 → Fin S255.rank)
  bcast_S_S1 : S_.BroadcastsInDim S1 (![] : Fin 0 → Fin S1.rank)
  bcast_S_S2 : S_.BroadcastsInDim S2 (![] : Fin 0 → Fin S2.rank)
  bcast_S_S4 : S_.BroadcastsInDim S4 (![] : Fin 0 → Fin S4.rank)
  bcast_S_S8 : S_.BroadcastsInDim S8 (![] : Fin 0 → Fin S8.rank)
  bcast_S_S16 : S_.BroadcastsInDim S16 (![] : Fin 0 → Fin S16.rank)
  bcast_S_S32 : S_.BroadcastsInDim S32 (![] : Fin 0 → Fin S32.rank)
  bcast_S_S64 : S_.BroadcastsInDim S64 (![] : Fin 0 → Fin S64.rank)
  bcast_S_S128 : S_.BroadcastsInDim S128 (![] : Fin 0 → Fin S128.rank)
  concatenates_S1_S2_S4_S8_S16_S32_S64_S128_S255_d0 : Shape.Concatenates [S1, S2, S4, S8, S16, S32, S64, S128] S255 0
  reducesTo_S255_S_d0 : S255.ReducesTo [0] S_
  dot_S2048x1024_S1024x255_S2048x255_1_0_0_1_n_n_wf : DotDims.WF S2048x1024 S1024x255 S2048x255 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x255.size a ≤ S1024x255.size a
  hwx0_1 : ∀ i : grid0.Coords, EltTy.bits .f32 = 32 ∨ (Rect.block (s := S1024x255) S1024x255.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x255.size a ≤ S1x255.size a
  hwx0_2 : ∀ i : grid0.Coords, EltTy.bits .f32 = 32 ∨ (Rect.block (s := S1x255) S1x255.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x255.size a ≤ S32x1x255.size a
  hwx0_5 : ∀ i : grid0.Coords, EltTy.bits .f32 = 32 ∨ (Rect.block (s := S32x1x255) S1x1x255.size (cc0_transform_5 i) (hinb0_5 i)).WholeWords (EltTy.packing .f32)

variable [Facts₀]

def dot_S2048x1024_S1024x255_S2048x255_1_0_0_1_n_n : DotDims S2048x1024 S1024x255 S2048x255 where
  lhsContracting := [1]
  rhsContracting := [0]
  lhsNonContracting := [0]
  rhsNonContracting := [1]
  lhsBatch := []
  rhsBatch := []
  wf := dot_S2048x1024_S1024x255_S2048x255_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x255.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x255.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x255.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x255 : Shape := ⟨2, ![1024, 255]⟩
abbrev S255 : Shape := ⟨1, ![255]⟩
abbrev S256x128 : Shape := ⟨2, ![256, 128]⟩
abbrev S65536x255 : Shape := ⟨2, ![65536, 255]⟩
abbrev S1x255 : Shape := ⟨2, ![1, 255]⟩
abbrev S_ : Shape := ⟨0, ![]⟩
abbrev S65536x1 : Shape := ⟨2, ![65536, 1]⟩
abbrev S65536x1x1 : Shape := ⟨3, ![65536, 1, 1]⟩
abbrev S65536x1x2 : Shape := ⟨3, ![65536, 1, 2]⟩
abbrev S65536x2 : Shape := ⟨2, ![65536, 2]⟩
abbrev S65536x2x1 : Shape := ⟨3, ![65536, 2, 1]⟩
abbrev S65536x2x2 : Shape := ⟨3, ![65536, 2, 2]⟩
abbrev S65536x4 : Shape := ⟨2, ![65536, 4]⟩
abbrev S65536x4x1 : Shape := ⟨3, ![65536, 4, 1]⟩
abbrev S65536x4x2 : Shape := ⟨3, ![65536, 4, 2]⟩
abbrev S65536x8 : Shape := ⟨2, ![65536, 8]⟩
abbrev S65536x8x1 : Shape := ⟨3, ![65536, 8, 1]⟩
abbrev S65536x8x2 : Shape := ⟨3, ![65536, 8, 2]⟩
abbrev S65536x16 : Shape := ⟨2, ![65536, 16]⟩
abbrev S65536x16x1 : Shape := ⟨3, ![65536, 16, 1]⟩
abbrev S65536x16x2 : Shape := ⟨3, ![65536, 16, 2]⟩
abbrev S65536x32 : Shape := ⟨2, ![65536, 32]⟩
abbrev S65536x32x1 : Shape := ⟨3, ![65536, 32, 1]⟩
abbrev S65536x32x2 : Shape := ⟨3, ![65536, 32, 2]⟩
abbrev S65536x64 : Shape := ⟨2, ![65536, 64]⟩
abbrev S65536x64x1 : Shape := ⟨3, ![65536, 64, 1]⟩
abbrev S65536x64x2 : Shape := ⟨3, ![65536, 64, 2]⟩
abbrev S65536x128 : Shape := ⟨2, ![65536, 128]⟩
abbrev S65536x128x1 : Shape := ⟨3, ![65536, 128, 1]⟩
abbrev S65536x128x2 : Shape := ⟨3, ![65536, 128, 2]⟩
abbrev S65536x256 : Shape := ⟨2, ![65536, 256]⟩
abbrev S1 : Shape := ⟨1, ![1]⟩
abbrev S2 : Shape := ⟨1, ![2]⟩
abbrev S4 : Shape := ⟨1, ![4]⟩
abbrev S8 : Shape := ⟨1, ![8]⟩
abbrev S16 : Shape := ⟨1, ![16]⟩
abbrev S32 : Shape := ⟨1, ![32]⟩
abbrev S64 : Shape := ⟨1, ![64]⟩
abbrev S128 : Shape := ⟨1, ![128]⟩

abbrev nBuf : Space → Nat
  | .hbm => 135
  | .vmem => 0
  | .smem => 0
  | _ => 0

abbrev hbmTy0_0 (i : Nat) : BufTy := match i % 128 with
  | 0 => ⟨S65536x1024, .f32⟩
  | 1 => ⟨S1024x255, .f32⟩
  | 2 => ⟨S255, .f32⟩
  | 3 => ⟨S256x128, .f32⟩
  | 4 => ⟨S65536x255, .f32⟩
  | 5 => ⟨S1x255, .f32⟩
  | 6 => ⟨S65536x255, .f32⟩
  | 7 => ⟨S65536x255, .f32⟩
  | 8 => ⟨S65536x255, .f32⟩
  | 9 => ⟨S65536x255, .f32⟩
  | 10 => ⟨S_, .f32⟩
  | 11 => ⟨S65536x255, .f32⟩
  | 12 => ⟨S65536x255, .f32⟩
  | 13 => ⟨S_, .f32⟩
  | 14 => ⟨S65536x255, .f32⟩
  | 15 => ⟨S65536x255, .f32⟩
  | 16 => ⟨S_, .f32⟩
  | 17 => ⟨S65536x1, .f32⟩
  | 18 => ⟨S65536x1, .f32⟩
  | 19 => ⟨S_, .f32⟩
  | 20 => ⟨S65536x1, .f32⟩
  | 21 => ⟨S65536x1, .f32⟩
  | 22 => ⟨S65536x1, .f32⟩
  | 23 => ⟨S65536x1, .f32⟩
  | 24 => ⟨S65536x1x1, .f32⟩
  | 25 => ⟨S65536x1x1, .f32⟩
  | 26 => ⟨S65536x1x2, .f32⟩
  | 27 => ⟨S65536x2, .f32⟩
  | 28 => ⟨S65536x2, .f32⟩
  | 29 => ⟨S_, .f32⟩
  | 30 => ⟨S65536x2, .f32⟩
  | 31 => ⟨S65536x2, .f32⟩
  | 32 => ⟨S65536x2, .f32⟩
  | 33 => ⟨S65536x2, .f32⟩
  | 34 => ⟨S65536x2x1, .f32⟩
  | 35 => ⟨S65536x2x1, .f32⟩
  | 36 => ⟨S65536x2x2, .f32⟩
  | 37 => ⟨S65536x4, .f32⟩
  | 38 => ⟨S65536x4, .f32⟩
  | 39 => ⟨S_, .f32⟩
  | 40 => ⟨S65536x4, .f32⟩
  | 41 => ⟨S65536x4, .f32⟩
  | 42 => ⟨S65536x4, .f32⟩
  | 43 => ⟨S65536x4, .f32⟩
  | 44 => ⟨S65536x4x1, .f32⟩
  | 45 => ⟨S65536x4x1, .f32⟩
  | 46 => ⟨S65536x4x2, .f32⟩
  | 47 => ⟨S65536x8, .f32⟩
  | 48 => ⟨S65536x8, .f32⟩
  | 49 => ⟨S_, .f32⟩
  | 50 => ⟨S65536x8, .f32⟩
  | 51 => ⟨S65536x8, .f32⟩
  | 52 => ⟨S65536x8, .f32⟩
  | 53 => ⟨S65536x8, .f32⟩
  | 54 => ⟨S65536x8x1, .f32⟩
  | 55 => ⟨S65536x8x1, .f32⟩
  | 56 => ⟨S65536x8x2, .f32⟩
  | 57 => ⟨S65536x16, .f32⟩
  | 58 => ⟨S65536x16, .f32⟩
  | 59 => ⟨S_, .f32⟩
  | 60 => ⟨S65536x16, .f32⟩
  | 61 => ⟨S65536x16, .f32⟩
  | 62 => ⟨S65536x16, .f32⟩
  | 63 => ⟨S65536x16, .f32⟩
  | 64 => ⟨S65536x16x1, .f32⟩
  | 65 => ⟨S65536x16x1, .f32⟩
  | 66 => ⟨S65536x16x2, .f32⟩
  | 67 => ⟨S65536x32, .f32⟩
  | 68 => ⟨S65536x32, .f32⟩
  | 69 => ⟨S_, .f32⟩
  | 70 => ⟨S65536x32, .f32⟩
  | 71 => ⟨S65536x32, .f32⟩
  | 72 => ⟨S65536x32, .f32⟩
  | 73 => ⟨S65536x32, .f32⟩
  | 74 => ⟨S65536x32x1, .f32⟩
  | 75 => ⟨S65536x32x1, .f32⟩
  | 76 => ⟨S65536x32x2, .f32⟩
  | 77 => ⟨S65536x64, .f32⟩
  | 78 => ⟨S65536x64, .f32⟩
  | 79 => ⟨S_, .f32⟩
  | 80 => ⟨S65536x64, .f32⟩
  | 81 => ⟨S65536x64, .f32⟩
  | 82 => ⟨S65536x64, .f32⟩
  | 83 => ⟨S65536x64, .f32⟩
  | 84 => ⟨S65536x64x1, .f32⟩
  | 85 => ⟨S65536x64x1, .f32⟩
  | 86 => ⟨S65536x64x2, .f32⟩
  | 87 => ⟨S65536x128, .f32⟩
  | 88 => ⟨S65536x128, .f32⟩
  | 89 => ⟨S_, .f32⟩
  | 90 => ⟨S65536x128, .f32⟩
  | 91 => ⟨S65536x128, .f32⟩
  | 92 => ⟨S65536x128, .f32⟩
  | 93 => ⟨S65536x128, .f32⟩
  | 94 => ⟨S65536x128x1, .f32⟩
  | 95 => ⟨S65536x128x1, .f32⟩
  | 96 => ⟨S65536x128x2, .f32⟩
  | 97 => ⟨S65536x256, .f32⟩
  | 98 => ⟨S65536x128, .f32⟩
  | 99 => ⟨S_, .f32⟩
  | 100 => ⟨S1, .f32⟩
  | 101 => ⟨S_, .f32⟩
  | 102 => ⟨S2, .f32⟩
  | 103 => ⟨S_, .f32⟩
  | 104 => ⟨S4, .f32⟩
  | 105 => ⟨S_, .f32⟩
  | 106 => ⟨S8, .f32⟩
  | 107 => ⟨S_, .f32⟩
  | 108 => ⟨S16, .f32⟩
  | 109 => ⟨S_, .f32⟩
  | 110 => ⟨S32, .f32⟩
  | 111 => ⟨S_, .f32⟩
  | 112 => ⟨S64, .f32⟩
  | 113 => ⟨S_, .f32⟩
  | 114 => ⟨S128, .f32⟩
  | 115 => ⟨S255, .f32⟩
  | 116 => ⟨S_, .f32⟩
  | 117 => ⟨S255, .f32⟩
  | 118 => ⟨S255, .f32⟩
  | 119 => ⟨S_, .f32⟩
  | 120 => ⟨S65536x255, .f32⟩
  | 121 => ⟨S65536x255, .f32⟩
  | 122 => ⟨S65536x255, .f32⟩
  | 123 => ⟨S_, .f32⟩
  | 124 => ⟨S65536x255, .f32⟩
  | 125 => ⟨S65536x255, .f32⟩
  | 126 => ⟨S65536x255, .f32⟩
  | 127 => ⟨S_, .f32⟩
  | _ => ⟨S65536x1024, .f32⟩

abbrev hbmTy0_1 (i : Nat) : BufTy := match i % 128 with
  | 0 => ⟨S255, .f32⟩
  | 1 => ⟨S_, .f32⟩
  | 2 => ⟨S255, .f32⟩
  | 3 => ⟨S255, .f32⟩
  | 4 => ⟨S255, .f32⟩
  | 5 => ⟨S_, .f32⟩
  | 6 => ⟨S_, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_9 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_10 : Ref sig .tc := ⟨.hbm, 99, rfl⟩
abbrev main_v84 : Ref sig .tc := ⟨.hbm, 100, rfl⟩
abbrev main_cst_11 : Ref sig .tc := ⟨.hbm, 101, rfl⟩
abbrev main_v85 : Ref sig .tc := ⟨.hbm, 102, rfl⟩
abbrev main_cst_12 : Ref sig .tc := ⟨.hbm, 103, rfl⟩
abbrev main_v86 : Ref sig .tc := ⟨.hbm, 104, rfl⟩
abbrev main_cst_13 : Ref sig .tc := ⟨.hbm, 105, rfl⟩
abbrev main_v87 : Ref sig .tc := ⟨.hbm, 106, rfl⟩
abbrev main_cst_14 : Ref sig .tc := ⟨.hbm, 107, rfl⟩
abbrev main_v88 : Ref sig .tc := ⟨.hbm, 108, rfl⟩
abbrev main_cst_15 : Ref sig .tc := ⟨.hbm, 109, rfl⟩
abbrev main_v89 : Ref sig .tc := ⟨.hbm, 110, rfl⟩
abbrev main_cst_16 : Ref sig .tc := ⟨.hbm, 111, rfl⟩
abbrev main_v90 : Ref sig .tc := ⟨.hbm, 112, rfl⟩
abbrev main_cst_17 : Ref sig .tc := ⟨.hbm, 113, rfl⟩
abbrev main_v91 : Ref sig .tc := ⟨.hbm, 114, rfl⟩
abbrev main_v92 : Ref sig .tc := ⟨.hbm, 115, rfl⟩
abbrev main_cst_18 : Ref sig .tc := ⟨.hbm, 116, rfl⟩
abbrev main_v93 : Ref sig .tc := ⟨.hbm, 117, rfl⟩
abbrev main_v94 : Ref sig .tc := ⟨.hbm, 118, rfl⟩
abbrev main_cst_19 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_21 : Ref sig .tc := ⟨.hbm, 127, rfl⟩
abbrev main_v101 : Ref sig .tc := ⟨.hbm, 128, rfl⟩
abbrev main_cst_22 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_23 : Ref sig .tc := ⟨.hbm, 133, rfl⟩
abbrev main_v105 : Ref sig .tc := ⟨.hbm, 134, rfl⟩

abbrev nD : Nat := 1
abbrev τ : Topo := Topo.v7x

variable {F : FTy → Type} [FloatOps F]

class Facts₀ : Prop where
  bcast_S255_S1x255_1 : S255.BroadcastsInDim S1x255 (![1] : Fin 1 → Fin S1x255.rank)
  bcast_S1x255_S65536x255_0_1 : S1x255.BroadcastsInDim S65536x255 (![0, 1] : Fin 2 → Fin S65536x255.rank)
  bcast_S_S65536x255 : S_.BroadcastsInDim S65536x255 (![] : Fin 0 → Fin S65536x255.rank)
  bcast_S_S65536x1 : S_.BroadcastsInDim S65536x1 (![] : Fin 0 → Fin S65536x1.rank)
  slices_S65536x255_S65536x1_0_0 : S65536x255.Slices ![0, 0] S65536x1
  bcast_S65536x1_S65536x1x1_0_1 : S65536x1.BroadcastsInDim S65536x1x1 (![0, 1] : Fin 2 → Fin S65536x1x1.rank)
  concatenates_S65536x1x1_S65536x1x1_S65536x1x2_d2 : Shape.Concatenates [S65536x1x1, S65536x1x1] S65536x1x2 2
  shapeCasts_S65536x1x2_S65536x2 : S65536x1x2.ShapeCasts S65536x2
  slices_S65536x255_S65536x2_0_1 : S65536x255.Slices ![0, 1] S65536x2
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  concatenates_S65536x2x1_S65536x2x1_S65536x2x2_d2 : Shape.Concatenates [S65536x2x1, S65536x2x1] S65536x2x2 2
  shapeCasts_S65536x2x2_S65536x4 : S65536x2x2.ShapeCasts S65536x4
  slices_S65536x255_S65536x4_0_3 : S65536x255.Slices ![0, 3] S65536x4
  bcast_S_S65536x4 : S_.BroadcastsInDim S65536x4 (![] : Fin 0 → Fin S65536x4.rank)
  bcast_S65536x4_S65536x4x1_0_1 : S65536x4.BroadcastsInDim S65536x4x1 (![0, 1] : Fin 2 → Fin S65536x4x1.rank)
  concatenates_S65536x4x1_S65536x4x1_S65536x4x2_d2 : Shape.Concatenates [S65536x4x1, S65536x4x1] S65536x4x2 2
  shapeCasts_S65536x4x2_S65536x8 : S65536x4x2.ShapeCasts S65536x8
  slices_S65536x255_S65536x8_0_7 : S65536x255.Slices ![0, 7] S65536x8
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  concatenates_S65536x8x1_S65536x8x1_S65536x8x2_d2 : Shape.Concatenates [S65536x8x1, S65536x8x1] S65536x8x2 2
  shapeCasts_S65536x8x2_S65536x16 : S65536x8x2.ShapeCasts S65536x16
  slices_S65536x255_S65536x16_0_15 : S65536x255.Slices ![0, 15] S65536x16
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  concatenates_S65536x16x1_S65536x16x1_S65536x16x2_d2 : Shape.Concatenates [S65536x16x1, S65536x16x1] S65536x16x2 2
  shapeCasts_S65536x16x2_S65536x32 : S65536x16x2.ShapeCasts S65536x32
  slices_S65536x255_S65536x32_0_31 : S65536x255.Slices ![0, 31] S65536x32
  bcast_S_S65536x32 : S_.BroadcastsInDim S65536x32 (![] : Fin 0 → Fin S65536x32.rank)
  bcast_S65536x32_S65536x32x1_0_1 : S65536x32.BroadcastsInDim S65536x32x1 (![0, 1] : Fin 2 → Fin S65536x32x1.rank)
  concatenates_S65536x32x1_S65536x32x1_S65536x32x2_d2 : Shape.Concatenates [S65536x32x1, S65536x32x1] S65536x32x2 2
  shapeCasts_S65536x32x2_S65536x64 : S65536x32x2.ShapeCasts S65536x64
  slices_S65536x255_S65536x64_0_63 : S65536x255.Slices ![0, 63] S65536x64
  bcast_S_S65536x64 : S_.BroadcastsInDim S65536x64 (![] : Fin 0 → Fin S65536x64.rank)
  bcast_S65536x64_S65536x64x1_0_1 : S65536x64.BroadcastsInDim S65536x64x1 (![0, 1] : Fin 2 → Fin S65536x64x1.rank)
  concatenates_S65536x64x1_S65536x64x1_S65536x64x2_d2 : Shape.Concatenates [S65536x64x1, S65536x64x1] S65536x64x2 2
  shapeCasts_S65536x64x2_S65536x128 : S65536x64x2.ShapeCasts S65536x128
  slices_S65536x255_S65536x128_0_127 : S65536x255.Slices ![0, 127] S65536x128
  bcast_S_S65536x128 : S_.BroadcastsInDim S65536x128 (![] : Fin 0 → Fin S65536x128.rank)
  bcast_S65536x128_S65536x128x1_0_1 : S65536x128.BroadcastsInDim S65536x128x1 (![0, 1] : Fin 2 → Fin S65536x128x1.rank)
  concatenates_S65536x128x1_S65536x128x1_S65536x128x2_d2 : Shape.Concatenates [S65536x128x1, S65536x128x1] S65536x128x2 2
  shapeCasts_S65536x128x2_S65536x256 : S65536x128x2.ShapeCasts S65536x256
  bcast_S_S1 : S_.BroadcastsInDim S1 (![] : Fin 0 → Fin S1.rank)
  bcast_S_S2 : S_.BroadcastsInDim S2 (![] : Fin 0 → Fin S2.rank)
  bcast_S_S4 : S_.BroadcastsInDim S4 (![] : Fin 0 → Fin S4.rank)
  bcast_S_S8 : S_.BroadcastsInDim S8 (![] : Fin 0 → Fin S8.rank)
  bcast_S_S16 : S_.BroadcastsInDim S16 (![] : Fin 0 → Fin S16.rank)
  bcast_S_S32 : S_.BroadcastsInDim S32 (![] : Fin 0 → Fin S32.rank)
  bcast_S_S64 : S_.BroadcastsInDim S64 (![] : Fin 0 → Fin S64.rank)
  bcast_S_S128 : S_.BroadcastsInDim S128 (![] : Fin 0 → Fin S128.rank)
  concatenates_S1_S2_S4_S8_S16_S32_S64_S128_S255_d0 : Shape.Concatenates [S1, S2, S4, S8, S16, S32, S64, S128] S255 0
  bcast_S_S255 : S_.BroadcastsInDim S255 (![] : Fin 0 → Fin S255.rank)
  reducesTo_S65536x255_S255_d0 : S65536x255.ReducesTo [0] S255
  h_S_ : 0 < S_.numel
  reducesTo_S255_S_d0 : S255.ReducesTo [0] S_
  dot_S65536x1024_S1024x255_S65536x255_1_0_0_1_n_n_wf : DotDims.WF S65536x1024 S1024x255 S65536x255 [1] [0] [0] [1] [] []
  dot_S65536x256_S256x128_S65536x128_1_0_0_1_n_n_wf : DotDims.WF S65536x256 S256x128 S65536x128 [1] [0] [0] [1] [] []

variable [Facts₀]

def dot_S65536x1024_S1024x255_S65536x255_1_0_0_1_n_n : DotDims S65536x1024 S1024x255 S65536x255 where
  lhsContracting := [1]
  rhsContracting := [0]
  lhsNonContracting := [0]
  rhsNonContracting := [1]
  lhsBatch := []
  rhsBatch := []
  wf := dot_S65536x1024_S1024x255_S65536x255_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.KernelFrame.lean ====
/-
  The frame of the kernel program (the text is the same as printed and idealized), at any float instance: @main is one reshape of the bias, the launch of
  the tree-routing kernel over 32 row tiles, and 29 host lines that finish the regulariser. Every weakly fair
  execution terminates without a fault; afterwards each window's array holds what the pipeline's write-backs leave
  (the inputs unchanged, the two outputs tile by tile at the body's stored values), every other buffer what the host
  lines compute from those, and the four argument arrays are as launched.

  The body reads its four input tiles whole, stores the per-tile column sums of the clamped log term into the second
  output's tile and the leaf mixture into the first output's tile; it keeps nothing between grid points, so the
  region invariant is the untouched rest of the core's memory.
-/
import proofs.«146501_j2989297238563_1_alg».proof.Proof.Gen.Kernel.Launch
import proofs.«146501_j2989297238563_1_alg».proof.Proof.Gen.Kernel.Skeleton
import proofs.«146501_j2989297238563_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the bias has been reshaped. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the 29 later host lines, entered at the contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped TensorCore buffers: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the six arrays the pipeline stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- The one host line before the region writes only the reshaped bias: argument 0 is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The one host line before the region writes only the reshaped bias: argument 1 is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The one host line before the region writes only the reshaped bias: argument 2 is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The one host line before the region writes only the reshaped bias: argument 3 is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The bias argument is no array of the pipeline (the region stages its reshaped copy), and no later line writes
    it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an unfetched
    point's block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    point's block index has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    point's block index has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an unfetched
    point's block index has not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the four argument arrays end as launched: three are input arrays of the
    pipeline (never written back), the bias bypasses the region and is written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      ((h c).1 3).trans (((dats 0 c).arrAt_in 3 rfl _).trans ((hA c 3).trans (V_main_arg3 m c)))⟩) h

/-! ## The body's accesses -/

abbrev r0_0 : Rect S2048x1024 := Rect.unit (s := S2048x1024) ![0, 0] S2048x1024.size inb_S2048x1024_S2048x1024_0_0
abbrev r0_1 : Rect S1024x255 := Rect.unit (s := S1024x255) ![0, 0] S1024x255.size inb_S1024x255_S1024x255_0_0
abbrev r0_2 : Rect S1x255 := Rect.unit (s := S1x255) ![0, 0] S1x255.size inb_S1x255_S1x255_0_0
abbrev r0_3 : Rect S256x128 := Rect.unit (s := S256x128) ![0, 0] S256x128.size inb_S256x128_S256x128_0_0
abbrev r0_4 : Rect S2048x128 := Rect.unit (s := S2048x128) ![0, 0] S2048x128.size inb_S2048x128_S2048x128_0_0
abbrev r0_5 : Rect S1x1x255 := Rect.unit (s := S1x1x255) ![0, 0, 0] S1x1x255.size inb_S1x1x255_S1x1x255_0_0_0

/-! ## What the body leaves in each output window's buffer -/

/-- The gate probabilities of the tile: the logistic of the tile's rows against the split weights plus the bias. -/
abbrev gates (x0 : Vec F S2048x1024 .f32) (x1 : Vec F S1024x255 .f32) (x2 : Vec F S1x255 .f32) : FVec F S2048x255 .f32 :=
  k0_pay2 (View.ld x0 r0_0) (View.ld x1 r0_1) (View.ld x2 r0_2)

/-- The first output's buffer after the body: its one whole-tile store of the leaf mixture, the routing
    probabilities of the tile's rows (eight levels of the tree) against the leaf values. -/
def out0_4 (x0 : Vec F S2048x1024 .f32) (x1 : Vec F S1024x255 .f32) (x2 : Vec F S1x255 .f32) (x3 : Vec F S256x128 .f32) : Vec F S2048x128 .f32 :=
  View.canon [⟨r0_4, k0_pay1 (k0_pay7 (gates x0 x1 x2) (k0_pay4 (View.ld x0 r0_0) (View.ld x1 r0_1) (View.ld x2 r0_2))
    (k0_pay5 (View.ld x0 r0_0) (View.ld x1 r0_1) (View.ld x2 r0_2)) (k0_pay6 (F := F))) (View.ld x3 r0_3)⟩]

/-- The second output's buffer after the body: its one whole-tile store of the column sums of the clamped log term. -/
def out0_5 (x0 : Vec F S2048x1024 .f32) (x1 : Vec F S1024x255 .f32) (x2 : Vec F S1x255 .f32) : Vec F S1x1x255 .f32 :=
  View.canon [⟨r0_5, k0_pay3 (View.ld x0 r0_0) (View.ld x1 r0_1) (View.ld x2 r0_2)⟩]

theorem cover0_4 (p0 : Vec F S2048x128 .f32) (y : S2048x128.Idx) :
    ∃ pc ∈ ([⟨r0_4, p0⟩] : List (View.Piece (Elt F) S2048x128 .f32)), y ∈ pc.1.set :=
  View.cover_of_tiled [⟨r0_4, p0⟩] S2048x128.size (by rfl) y
theorem cover0_5 (p0 : Vec F S1x1x255 .f32) (y : S1x1x255.Idx) :
    ∃ pc ∈ ([⟨r0_5, p0⟩] : List (View.Piece (Elt F) S1x1x255 .f32)), y ∈ pc.1.set :=
  View.cover_of_tiled [⟨r0_5, p0⟩] S1x1x255.size (by rfl) y

/-! ## The body's triple -/

set_option maxHeartbeats 4000000 in
/-- The kernel body on whole staging memrefs, the four inputs' at read contents and the two outputs' at anything,
    runs to the continuation holding the inputs' as they were and each output's at its one covering store. -/
theorem sound_kernel (c : Dev nD) (E : Set ℕ) (i : grid0.Coords)
    (arg1 : Memref sig .tc .vmem S2048x1024 .f32) (harg1 : arg1.IsWhole) (arg2 : Memref sig .tc .vmem S1024x255 .f32) (harg2 : arg2.IsWhole)
    (arg3 : Memref sig .tc .vmem S1x255 .f32) (harg3 : arg3.IsWhole) (arg4 : Memref sig .tc .vmem S256x128 .f32) (harg4 : arg4.IsWhole)
    (arg5 : Memref sig .tc .vmem S2048x128 .f32) (harg5 : arg5.IsWhole) (arg6 : Memref sig .tc .vmem S1x1x255 .f32) (harg6 : arg6.IsWhole)
    (x0 : Vec F S2048x1024 .f32) (x1 : Vec F S1024x255 .f32) (x2 : Vec F S1x255 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1 x2)) -∗ K ⟨⟩))
      ⊢ wp frame (wpE (defs₀ (F := F)) Variants.none c none) E (cc0__moe_kernel i arg1 harg1 arg2 harg2 arg3 harg3 arg4 harg4 arg5 harg5 arg6 harg6) K := by
  simp only [cc0__moe_kernel_eq_skeleton]; unfold cc0__moe_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _)
  iexists _; isplitr
  swap; · iexact H5
  ipureintro
  try dsimp only
  exact View.read_writes_eq_canon _ _ _ (cover0_5 _)

/-! ## The pipeline's proof data -/

/-- The proof data of the one pipeline on core `c`: the arrays as the region finds them; after the body at point `t`
    each input's buffer still at its block, each output's at the body's store over the point's input blocks; the
    invariant the untouched rest of the core; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    each array of the pipeline at what the write-backs leave and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the run terminates without a fault and the four argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.KernelIdealFrame.lean ====
/-
  The frame of the kernel program (the text is the same as printed and idealized), at any float instance: @main is one reshape of the bias, the launch of
  the tree-routing kernel over 32 row tiles, and 29 host lines that finish the regulariser. Every weakly fair
  execution terminates without a fault; afterwards each window's array holds what the pipeline's write-backs leave
  (the inputs unchanged, the two outputs tile by tile at the body's stored values), every other buffer what the host
  lines compute from those, and the four argument arrays are as launched.

  The body reads its four input tiles whole, stores the per-tile column sums of the clamped log term into the second
  output's tile and the leaf mixture into the first output's tile; it keeps nothing between grid points, so the
  region invariant is the untouched rest of the core's memory.
-/
import proofs.«146501_j2989297238563_1_alg».proof.Proof.Gen.KernelIdeal.Launch
import proofs.«146501_j2989297238563_1_alg».proof.Proof.Gen.KernelIdeal.Skeleton
import proofs.«146501_j2989297238563_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the bias has been reshaped. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the 29 later host lines, entered at the contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped TensorCore buffers: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the six arrays the pipeline stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- The one host line before the region writes only the reshaped bias: argument 0 is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The one host line before the region writes only the reshaped bias: argument 1 is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The one host line before the region writes only the reshaped bias: argument 2 is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The one host line before the region writes only the reshaped bias: argument 3 is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The bias argument is no array of the pipeline (the region stages its reshaped copy), and no later line writes
    it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an unfetched
    point's block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: an unfetched
    point's block index has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: an unfetched
    point's block index has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: an unfetched
    point's block index has not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the four argument arrays end as launched: three are input arrays of the
    pipeline (never written back), the bias bypasses the region and is written by no host line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      ((h c).1 3).trans (((dats 0 c).arrAt_in 3 rfl _).trans ((hA c 3).trans (V_main_arg3 m c)))⟩) h

/-! ## The body's accesses -/

abbrev r0_0 : Rect S2048x1024 := Rect.unit (s := S2048x1024) ![0, 0] S2048x1024.size inb_S2048x1024_S2048x1024_0_0
abbrev r0_1 : Rect S1024x255 := Rect.unit (s := S1024x255) ![0, 0] S1024x255.size inb_S1024x255_S1024x255_0_0
abbrev r0_2 : Rect S1x255 := Rect.unit (s := S1x255) ![0, 0] S1x255.size inb_S1x255_S1x255_0_0
abbrev r0_3 : Rect S256x128 := Rect.unit (s := S256x128) ![0, 0] S256x128.size inb_S256x128_S256x128_0_0
abbrev r0_4 : Rect S2048x128 := Rect.unit (s := S2048x128) ![0, 0] S2048x128.size inb_S2048x128_S2048x128_0_0
abbrev r0_5 : Rect S1x1x255 := Rect.unit (s := S1x1x255) ![0, 0, 0] S1x1x255.size inb_S1x1x255_S1x1x255_0_0_0

/-! ## What the body leaves in each output window's buffer -/

/-- The gate probabilities of the tile: the logistic of the tile's rows against the split weights plus the bias. -/
abbrev gates (x0 : Vec F S2048x1024 .f32) (x1 : Vec F S1024x255 .f32) (x2 : Vec F S1x255 .f32) : FVec F S2048x255 .f32 :=
  k0_pay2 (View.ld x0 r0_0) (View.ld x1 r0_1) (View.ld x2 r0_2)

/-- The first output's buffer after the body: its one whole-tile store of the leaf mixture, the routing
    probabilities of the tile's rows (eight levels of the tree) against the leaf values. -/
def out0_4 (x0 : Vec F S2048x1024 .f32) (x1 : Vec F S1024x255 .f32) (x2 : Vec F S1x255 .f32) (x3 : Vec F S256x128 .f32) : Vec F S2048x128 .f32 :=
  View.canon [⟨r0_4, k0_pay1 (k0_pay7 (gates x0 x1 x2) (k0_pay4 (View.ld x0 r0_0) (View.ld x1 r0_1) (View.ld x2 r0_2))
    (k0_pay5 (View.ld x0 r0_0) (View.ld x1 r0_1) (View.ld x2 r0_2)) (k0_pay6 (F := F))) (View.ld x3 r0_3)⟩]

/-- The second output's buffer after the body: its one whole-tile store of the column sums of the clamped log term. -/
def out0_5 (x0 : Vec F S2048x1024 .f32) (x1 : Vec F S1024x255 .f32) (x2 : Vec F S1x255 .f32) : Vec F S1x1x255 .f32 :=
  View.canon [⟨r0_5, k0_pay3 (View.ld x0 r0_0) (View.ld x1 r0_1) (View.ld x2 r0_2)⟩]

theorem cover0_4 (p0 : Vec F S2048x128 .f32) (y : S2048x128.Idx) :
    ∃ pc ∈ ([⟨r0_4, p0⟩] : List (View.Piece (Elt F) S2048x128 .f32)), y ∈ pc.1.set :=
  View.cover_of_tiled [⟨r0_4, p0⟩] S2048x128.size (by rfl) y
theorem cover0_5 (p0 : Vec F S1x1x255 .f32) (y : S1x1x255.Idx) :
    ∃ pc ∈ ([⟨r0_5, p0⟩] : List (View.Piece (Elt F) S1x1x255 .f32)), y ∈ pc.1.set :=
  View.cover_of_tiled [⟨r0_5, p0⟩] S1x1x255.size (by rfl) y

/-! ## The body's triple -/

set_option maxHeartbeats 4000000 in
/-- The kernel body on whole staging memrefs, the four inputs' at read contents and the two outputs' at anything,
    runs to the continuation holding the inputs' as they were and each output's at its one covering store. -/
theorem sound_kernel (c : Dev nD) (E : Set ℕ) (i : grid0.Coords)
    (arg1 : Memref sig .tc .vmem S2048x1024 .f32) (harg1 : arg1.IsWhole) (arg2 : Memref sig .tc .vmem S1024x255 .f32) (harg2 : arg2.IsWhole)
    (arg3 : Memref sig .tc .vmem S1x255 .f32) (harg3 : arg3.IsWhole) (arg4 : Memref sig .tc .vmem S256x128 .f32) (harg4 : arg4.IsWhole)
    (arg5 : Memref sig .tc .vmem S2048x128 .f32) (harg5 : arg5.IsWhole) (arg6 : Memref sig .tc .vmem S1x1x255 .f32) (harg6 : arg6.IsWhole)
    (x0 : Vec F S2048x1024 .f32) (x1 : Vec F S1024x255 .f32) (x2 : Vec F S1x255 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1 x2)) -∗ K ⟨⟩))
      ⊢ wp frame (wpE (defs₀ (F := F)) Variants.none c none) E (cc0__moe_kernel i arg1 harg1 arg2 harg2 arg3 harg3 arg4 harg4 arg5 harg5 arg6 harg6) K := by
  simp only [cc0__moe_kernel_eq_skeleton]; unfold cc0__moe_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _)
  iexists _; isplitr
  swap; · iexact H5
  ipureintro
  try dsimp only
  exact View.read_writes_eq_canon _ _ _ (cover0_5 _)

/-! ## The pipeline's proof data -/

/-- The proof data of the one pipeline on core `c`: the arrays as the region finds them; after the body at point `t`
    each input's buffer still at its block, each output's at the body's store over the point's input blocks; the
    invariant the untouched rest of the core; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) (iblk m c 3 t) := by dsimp only [dats]
theorem after0_5 (c : Dev nD) (t : Fin cfg0.N) : (dats m 0 c).after 5 t = out0_5 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and every final state has
    each array of the pipeline at what the write-backs leave and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the run terminates without a fault and the four argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.RefTerms.lean ====
/-
  The reference's two results as named functions of its argument arrays, cut at the places where the kernel's row
  tiles meet them: the gate probabilities of every row (the logistic of the affine split scores, spelt on the host
  as 1 / (1 + exp (-z))), the routing probabilities of the 256 leaves after eight levels of the tree, their mixture
  with the leaf values, the clamped log term log (max (p (1 - p), c)), its mean over the rows, and the level-weighted
  sum that is the regulariser.
-/
import proofs.«146501_j2989297238563_1_alg».proof.Proof.Gen.ReferenceIdeal
import Idealize.ShloMosaic.Lib.StableHlo.Run
import Idealize.ShloMosaic.Lib.ValueIdx

set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

variable (V0 : Valuation τ sig (Elt F))

/-- The four argument arrays read off a valuation, at their array types. -/
abbrev argX : FVec F S65536x1024 .f32 := V0 (Proc.devRef .tc main_arg0)
abbrev argW : FVec F S1024x255 .f32 := V0 (Proc.devRef .tc main_arg1)
abbrev argB : FVec F S255 .f32 := V0 (Proc.devRef .tc main_arg2)
abbrev argL : FVec F S256x128 .f32 := V0 (Proc.devRef .tc main_arg3)

/-! ## The levels, named as the reference computes them -/

set_option maxRecDepth 8192 in
/-- Gate probabilities, one per row and internal node: 1 / (1 + exp (-(x · W + b))). -/
def res_main_v9 (V0 : Valuation τ sig (Elt F)) : (Proc.devRef .tc main_v9 : DevRef τ sig).ty.Contents (Elt F) :=
  Host.divf (broadcastInDim S65536x255 ![] bcast_S_S65536x255 (constant S_ .f32 0x3F800000#32)) (addf (broadcastInDim S65536x255 ![] bcast_S_S65536x255 (constant S_ .f32 0x3F800000#32)) (Host.exp (Host.negf (addf (Host.dotGeneral dot_S65536x1024_S1024x255_S65536x255_1_0_0_1_n_n none (V0 (Proc.devRef .tc main_arg0)) (V0 (Proc.devRef .tc main_arg1))) (broadcastInDim S65536x255 ![0, 1] bcast_S1x255_S65536x255_0_1 (broadcastInDim S1x255 ![1] bcast_S255_S1x255_1 (V0 (Proc.devRef .tc main_arg2))))))))

set_option maxRecDepth 8192 in
/-- The root's routing probability: the all-ones column. -/
def res_main_v10 (V0 : Valuation τ sig (Elt F)) : (Proc.devRef .tc main_v10 : DevRef τ sig).ty.Contents (Elt F) :=
  broadcastInDim S65536x1 ![] bcast_S_S65536x1 (constant S_ .f32 0x3F800000#32)

set_option maxRecDepth 8192 in
/-- The gates of one level: a column slice of the gate matrix. -/
def res_main_v11 (V0 : Valuation τ sig (Elt F)) : (Proc.devRef .tc main_v11 : DevRef τ sig).ty.Contents (Elt F) :=
  extractStridedSlice S65536x1 ![0, 0] (res_main_v9 V0) slices_S65536x255_S65536x1_0_0

set_option maxRecDepth 8192 in
/-- Routing probabilities after one more level: left and right children interleaved. -/
def res_main_v19 (V0 : Valuation τ sig (Elt F)) : (Proc.devRef .tc main_v19 : DevRef τ sig).ty.Contents (Elt F) :=
  shapeCast _ (concatenate S65536x1x2 2 [⟨S65536x1x1, (broadcastInDim S65536x1x1 ![0, 1] bcast_S65536x1_S65536x1x1_0_1 (mulf (subf (broadcastInDim S65536x1 ![] bcast_S_S65536x1 (constant S_ .f32 0x3F800000#32)) (res_main_v11 V0)) (res_main_v10 V0)))⟩, ⟨S65536x1x1, (broadcastInDim S65536x1x1 ![0, 1] bcast_S65536x1_S65536x1x1_0_1 (mulf (res_main_v11 V0) (res_main_v10 V0)))⟩] concatenates_S65536x1x1_S65536x1x1_S65536x1x2_d2) shapeCasts_S65536x1x2_S65536x2

set_option maxRecDepth 8192 in
/-- The gates of one level: a column slice of the gate matrix. -/
def res_main_v20 (V0 : Valuation τ sig (Elt F)) : (Proc.devRef .tc main_v20 : DevRef τ sig).ty.Contents (Elt F) :=
  extractStridedSlice S65536x2 ![0, 1] (res_main_v9 V0) slices_S65536x255_S65536x2_0_1

set_option maxRecDepth 8192 in
/-- Routing probabilities after one more level: left and right children interleaved. -/
def res_main_v28 (V0 : Valuation τ sig (Elt F)) : (Proc.devRef .tc main_v28 : DevRef τ sig).ty.Contents (Elt F) :=
  shapeCast _ (concatenate S65536x2x2 2 [⟨S65536x2x1, (broadcastInDim S65536x2x1 ![0, 1] bcast_S65536x2_S65536x2x1_0_1 (mulf (subf (broadcastInDim S65536x2 ![] bcast_S_S65536x2 (constant S_ .f32 0x3F800000#32)) (res_main_v20 V0)) (res_main_v19 V0)))⟩, ⟨S65536x2x1, (broadcastInDim S65536x2x1 ![0, 1] bcast_S65536x2_S65536x2x1_0_1 (mulf (res_main_v20 V0) (res_main_v19 V0)))⟩] concatenates_S65536x2x1_S65536x2x1_S65536x2x2_d2) shapeCasts_S65536x2x2_S65536x4

set_option maxRecDepth 8192 in
/-- The gates of one level: a column slice of the gate matrix. -/
def res_main_v29 (V0 : Valuation τ sig (Elt F)) : (Proc.devRef .tc main_v29 : DevRef τ sig).ty.Contents (Elt F) :=
  extractStridedSlice S65536x4 ![0, 3] (res_main_v9 V0) slices_S65536x255_S65536x4_0_3

set_option maxRecDepth 8192 in
/-- Routing probabilities after one more level: left and right children interleaved. -/
def res_main_v37 (V0 : Valuation τ sig (Elt F)) : (Proc.devRef .tc main_v37 : DevRef τ sig).ty.Contents (Elt F) :=
  shapeCast _ (concatenate S65536x4x2 2 [⟨S65536x4x1, (broadcastInDim S65536x4x1 ![0, 1] bcast_S65536x4_S65536x4x1_0_1 (mulf (subf (broadcastInDim S65536x4 ![] bcast_S_S65536x4 (constant S_ .f32 0x3F800000#32)) (res_main_v29 V0)) (res_main_v28 V0)))⟩, ⟨S65536x4x1, (broadcastInDim S65536x4x1 ![0, 1] bcast_S65536x4_S65536x4x1_0_1 (mulf (res_main_v29 V0) (res_main_v28 V0)))⟩] concatenates_S65536x4x1_S65536x4x1_S65536x4x2_d2) shapeCasts_S65536x4x2_S65536x8

set_option maxRecDepth 8192 in
/-- The gates of one level: a column slice of the gate matrix. -/
def res_main_v38 (V0 : Valuation τ sig (Elt F)) : (Proc.devRef .tc main_v38 : DevRef τ sig).ty.Contents (Elt F) :=
  extractStridedSlice S65536x8 ![0, 7] (res_main_v9 V0) slices_S65536x255_S65536x8_0_7

set_option maxRecDepth 8192 in
/-- Routing probabilities after one more level: left and right children interleaved. -/
def res_main_v46 (V0 : Valuation τ sig (Elt F)) : (Proc.devRef .tc main_v46 : DevRef τ sig).ty.Contents (Elt F) :=
  shapeCast _ (concatenate S65536x8x2 2 [⟨S65536x8x1, (broadcastInDim S65536x8x1 ![0, 1] bcast_S65536x8_S65536x8x1_0_1 (mulf (subf (broadcastInDim S65536x8 ![] bcast_S_S65536x8 (constant S_ .f32 0x3F800000#32)) (res_main_v38 V0)) (res_main_v37 V0)))⟩, ⟨S65536x8x1, (broadcastInDim S65536x8x1 ![0, 1] bcast_S65536x8_S65536x8x1_0_1 (mulf (res_main_v38 V0) (res_main_v37 V0)))⟩] concatenates_S65536x8x1_S65536x8x1_S65536x8x2_d2) shapeCasts_S65536x8x2_S65536x16

set_option maxRecDepth 8192 in
/-- The gates of one level: a column slice of the gate matrix. -/
def res_main_v47 (V0 : Valuation τ sig (Elt F)) : (Proc.devRef .tc main_v47 : DevRef τ sig).ty.Contents (Elt F) :=
  extractStridedSlice S65536x16 ![0, 15] (res_main_v9 V0) slices_S65536x255_S65536x16_0_15

set_option maxRecDepth 8192 in
/-- Routing probabilities after one more level: left and right children interleaved. -/
def res_main_v55 (V0 : Valuation τ sig (Elt F)) : (Proc.devRef .tc main_v55 : DevRef τ sig).ty.Contents (Elt F) :=
  shapeCast _ (concatenate S65536x16x2 2 [⟨S65536x16x1, (broadcastInDim S65536x16x1 ![0, 1] bcast_S65536x16_S65536x16x1_0_1 (mulf (subf (broadcastInDim S65536x16 ![] bcast_S_S65536x16 (constant S_ .f32 0x3F800000#32)) (res_main_v47 V0)) (res_main_v46 V0)))⟩, ⟨S65536x16x1, (broadcastInDim S65536x16x1 ![0, 1] bcast_S65536x16_S65536x16x1_0_1 (mulf (res_main_v47 V0) (res_main_v46 V0)))⟩] concatenates_S65536x16x1_S65536x16x1_S65536x16x2_d2) shapeCasts_S65536x16x2_S65536x32

set_option maxRecDepth 8192 in
/-- The gates of one level: a column slice of the gate matrix. -/
def res_main_v56 (V0 : Valuation τ sig (Elt F)) : (Proc.devRef .tc main_v56 : DevRef τ sig).ty.Contents (Elt F) :=
  extractStridedSlice S65536x32 ![0, 31] (res_main_v9 V0) slices_S65536x255_S65536x32_0_31

set_option maxRecDepth 8192 in
/-- Routing probabilities after one more level: left and right children interleaved. -/
def res_main_v64 (V0 : Valuation τ sig (Elt F)) : (Proc.devRef .tc main_v64 : DevRef τ sig).ty.Contents (Elt F) :=
  shapeCast _ (concatenate S65536x32x2 2 [⟨S65536x32x1, (broadcastInDim S65536x32x1 ![0, 1] bcast_S65536x32_S65536x32x1_0_1 (mulf (subf (broadcastInDim S65536x32 ![] bcast_S_S65536x32 (constant S_ .f32 0x3F800000#32)) (res_main_v56 V0)) (res_main_v55 V0)))⟩, ⟨S65536x32x1, (broadcastInDim S65536x32x1 ![0, 1] bcast_S65536x32_S65536x32x1_0_1 (mulf (res_main_v56 V0) (res_main_v55 V0)))⟩] concatenates_S65536x32x1_S65536x32x1_S65536x32x2_d2) shapeCasts_S65536x32x2_S65536x64

set_option maxRecDepth 8192 in
/-- The gates of one level: a column slice of the gate matrix. -/
def res_main_v65 (V0 : Valuation τ sig (Elt F)) : (Proc.devRef .tc main_v65 : DevRef τ sig).ty.Contents (Elt F) :=
  extractStridedSlice S65536x64 ![0, 63] (res_main_v9 V0) slices_S65536x255_S65536x64_0_63

set_option maxRecDepth 8192 in
/-- Routing probabilities after one more level: left and right children interleaved. -/
def res_main_v73 (V0 : Valuation τ sig (Elt F)) : (Proc.devRef .tc main_v73 : DevRef τ sig).ty.Contents (Elt F) :=
  shapeCast _ (concatenate S65536x64x2 2 [⟨S65536x64x1, (broadcastInDim S65536x64x1 ![0, 1] bcast_S65536x64_S65536x64x1_0_1 (mulf (subf (broadcastInDim S65536x64 ![] bcast_S_S65536x64 (constant S_ .f32 0x3F800000#32)) (res_main_v65 V0)) (res_main_v64 V0)))⟩, ⟨S65536x64x1, (broadcastInDim S65536x64x1 ![0, 1] bcast_S65536x64_S65536x64x1_0_1 (mulf (res_main_v65 V0) (res_main_v64 V0)))⟩] concatenates_S65536x64x1_S65536x64x1_S65536x64x2_d2) shapeCasts_S65536x64x2_S65536x128

set_option maxRecDepth 8192 in
/-- The gates of one level: a column slice of the gate matrix. -/
def res_main_v74 (V0 : Valuation τ sig (Elt F)) : (Proc.devRef .tc main_v74 : DevRef τ sig).ty.Contents (Elt F) :=
  extractStridedSlice S65536x128 ![0, 127] (res_main_v9 V0) slices_S65536x255_S65536x128_0_127

/-- Gate probabilities, one per row and internal node. -/
def gatesR : FVec F S65536x255 .f32 := res_main_v9 V0

/-- Routing probabilities of the 256 leaves, one row per input row: the eighth level of the tree. -/
def probsR : FVec F S65536x256 .f32 :=
  (shapeCast _ (concatenate S65536x128x2 2 [⟨S65536x128x1, (broadcastInDim S65536x128x1 ![0, 1] bcast_S65536x128_S65536x128x1_0_1 (mulf (subf (broadcastInDim S65536x128 ![] bcast_S_S65536x128 (constant S_ .f32 0x3F800000#32)) (res_main_v74 V0)) (res_main_v73 V0)))⟩, ⟨S65536x128x1, (broadcastInDim S65536x128x1 ![0, 1] bcast_S65536x128_S65536x128x1_0_1 (mulf (res_main_v74 V0) (res_main_v73 V0)))⟩] concatenates_S65536x128x1_S65536x128x1_S65536x128x2_d2) shapeCasts_S65536x128x2_S65536x256)

/-- The first result: the leaf mixture. -/
def outR : FVec F S65536x128 .f32 :=
  Host.dotGeneral dot_S65536x256_S256x128_S65536x128_1_0_0_1_n_n none (probsR V0) (argL V0)

/-- The clamped log term of every row and internal node. -/
def logqR : FVec F S65536x255 .f32 :=
  Host.log (maximumf (mulf (gatesR V0) (subf (broadcastInDim S65536x255 ![] bcast_S_S65536x255 (constant S_ .f32 0x3F800000#32)) (gatesR V0))) (broadcastInDim S65536x255 ![] bcast_S_S65536x255 (constant S_ .f32 0x3727C5AC#32)))

/-- Its mean over the 65536 rows, per internal node: the column sum divided by 65536. -/
def meanR : FVec F S255 .f32 :=
  Host.divf (Host.reduceAdd (logqR V0) (constant S_ .f32 0x00000000#32) reducesTo_S65536x255_S255_d0 h_S_) (broadcastInDim S255 ![] bcast_S_S255 (constant S_ .f32 0x47800000#32))

/-- The level weights 2^-d, one per internal node in level order. -/
def weightsR : FVec F S255 .f32 :=
  (concatenate S255 0 [⟨S1, (broadcastInDim S1 ![] bcast_S_S1 (constant S_ .f32 0x3F800000#32))⟩, ⟨S2, (broadcastInDim S2 ![] bcast_S_S2 (constant S_ .f32 0x3F000000#32))⟩, ⟨S4, (broadcastInDim S4 ![] bcast_S_S4 (constant S_ .f32 0x3E800000#32))⟩, ⟨S8, (broadcastInDim S8 ![] bcast_S_S8 (constant S_ .f32 0x3E000000#32))⟩, ⟨S16, (broadcastInDim S16 ![] bcast_S_S16 (constant S_ .f32 0x3D800000#32))⟩, ⟨S32, (broadcastInDim S32 ![] bcast_S_S32 (constant S_ .f32 0x3D000000#32))⟩, ⟨S64, (broadcastInDim S64 ![] bcast_S_S64 (constant S_ .f32 0x3C800000#32))⟩, ⟨S128, (broadcastInDim S128 ![] bcast_S_S128 (constant S_ .f32 0x3C000000#32))⟩] concatenates_S1_S2_S4_S8_S16_S32_S64_S128_S255_d0)

/-- The regulariser from a per-node mean: the sum over the nodes of -1/2 · weight · mean. -/
def regOfR (z : FVec F S255 .f32) : FVec F S_ .f32 :=
  Host.reduceAdd (mulf (mulf (broadcastInDim S255 ![] bcast_S_S255 (constant S_ .f32 0xBF000000#32)) weightsR) z) (constant S_ .f32 0x00000000#32) reducesTo_S255_S_d0 h_S_

/-- The second result. -/
def regR : FVec F S_ .f32 := regOfR (meanR V0)

end Cert.ReferenceIdeal.RefValue

end
-- ==== Proof.RefRun.lean ====
/-
  The reference's run with its two results named: every weakly fair execution terminates with the leaf mixture and the
  regulariser at the named terms of the launch contents, the arguments unchanged. The levels named in this proof's own
  module are the run's levels, one equation per level.
-/
import proofs.«146501_j2989297238563_1_alg».proof.Proof.RefRunCopy
import proofs.«146501_j2989297238563_1_alg».proof.Proof.RefTerms

set_option maxRecDepth 8192

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem res_main_v9_eq (V0 : Valuation τ sig (Elt F)) : res_main_v9 V0 = ValueP.res_main_v9 V0 := by
  unfold res_main_v9 ValueP.res_main_v9
  rfl
theorem res_main_v10_eq (V0 : Valuation τ sig (Elt F)) : res_main_v10 V0 = ValueP.res_main_v10 V0 := by
  unfold res_main_v10 ValueP.res_main_v10
  rfl
theorem res_main_v11_eq (V0 : Valuation τ sig (Elt F)) : res_main_v11 V0 = ValueP.res_main_v11 V0 := by
  unfold res_main_v11 ValueP.res_main_v11
  rw [res_main_v9_eq]
theorem res_main_v19_eq (V0 : Valuation τ sig (Elt F)) : res_main_v19 V0 = ValueP.res_main_v19 V0 := by
  unfold res_main_v19 ValueP.res_main_v19
  rw [res_main_v11_eq, res_main_v10_eq]
theorem res_main_v20_eq (V0 : Valuation τ sig (Elt F)) : res_main_v20 V0 = ValueP.res_main_v20 V0 := by
  unfold res_main_v20 ValueP.res_main_v20
  rw [res_main_v9_eq]
theorem res_main_v28_eq (V0 : Valuation τ sig (Elt F)) : res_main_v28 V0 = ValueP.res_main_v28 V0 := by
  unfold res_main_v28 ValueP.res_main_v28
  rw [res_main_v20_eq, res_main_v19_eq]
theorem res_main_v29_eq (V0 : Valuation τ sig (Elt F)) : res_main_v29 V0 = ValueP.res_main_v29 V0 := by
  unfold res_main_v29 ValueP.res_main_v29
  rw [res_main_v9_eq]
theorem res_main_v37_eq (V0 : Valuation τ sig (Elt F)) : res_main_v37 V0 = ValueP.res_main_v37 V0 := by
  unfold res_main_v37 ValueP.res_main_v37
  rw [res_main_v29_eq, res_main_v28_eq]
theorem res_main_v38_eq (V0 : Valuation τ sig (Elt F)) : res_main_v38 V0 = ValueP.res_main_v38 V0 := by
  unfold res_main_v38 ValueP.res_main_v38
  rw [res_main_v9_eq]
theorem res_main_v46_eq (V0 : Valuation τ sig (Elt F)) : res_main_v46 V0 = ValueP.res_main_v46 V0 := by
  unfold res_main_v46 ValueP.res_main_v46
  rw [res_main_v38_eq, res_main_v37_eq]
theorem res_main_v47_eq (V0 : Valuation τ sig (Elt F)) : res_main_v47 V0 = ValueP.res_main_v47 V0 := by
  unfold res_main_v47 ValueP.res_main_v47
  rw [res_main_v9_eq]
theorem res_main_v55_eq (V0 : Valuation τ sig (Elt F)) : res_main_v55 V0 = ValueP.res_main_v55 V0 := by
  unfold res_main_v55 ValueP.res_main_v55
  rw [res_main_v47_eq, res_main_v46_eq]
theorem res_main_v56_eq (V0 : Valuation τ sig (Elt F)) : res_main_v56 V0 = ValueP.res_main_v56 V0 := by
  unfold res_main_v56 ValueP.res_main_v56
  rw [res_main_v9_eq]
theorem res_main_v64_eq (V0 : Valuation τ sig (Elt F)) : res_main_v64 V0 = ValueP.res_main_v64 V0 := by
  unfold res_main_v64 ValueP.res_main_v64
  rw [res_main_v56_eq, res_main_v55_eq]
theorem res_main_v65_eq (V0 : Valuation τ sig (Elt F)) : res_main_v65 V0 = ValueP.res_main_v65 V0 := by
  unfold res_main_v65 ValueP.res_main_v65
  rw [res_main_v9_eq]
theorem res_main_v73_eq (V0 : Valuation τ sig (Elt F)) : res_main_v73 V0 = ValueP.res_main_v73 V0 := by
  unfold res_main_v73 ValueP.res_main_v73
  rw [res_main_v65_eq, res_main_v64_eq]
theorem res_main_v74_eq (V0 : Valuation τ sig (Elt F)) : res_main_v74 V0 = ValueP.res_main_v74 V0 := by
  unfold res_main_v74 ValueP.res_main_v74
  rw [res_main_v9_eq]

/-- The first result's term. -/
theorem outR_eq (V0 : Valuation τ sig (Elt F)) : outR V0 = Host.dotGeneral dot_S65536x256_S256x128_S65536x128_1_0_0_1_n_n none (shapeCast _ (concatenate S65536x128x2 2 [⟨S65536x128x1, (broadcastInDim S65536x128x1 ![0, 1] bcast_S65536x128_S65536x128x1_0_1 (mulf (subf (broadcastInDim S65536x128 ![] bcast_S_S65536x128 (constant S_ .f32 0x3F800000#32)) (ValueP.res_main_v74 V0)) (ValueP.res_main_v73 V0)))⟩, ⟨S65536x128x1, (broadcastInDim S65536x128x1 ![0, 1] bcast_S65536x128_S65536x128x1_0_1 (mulf (ValueP.res_main_v74 V0) (ValueP.res_main_v73 V0)))⟩] concatenates_S65536x128x1_S65536x128x1_S65536x128x2_d2) shapeCasts_S65536x128x2_S65536x256) (V0 (Proc.devRef .tc main_arg3)) := by
  unfold outR probsR argL
  rw [res_main_v74_eq, res_main_v73_eq]

/-- The second result's term. -/
theorem regR_eq (V0 : Valuation τ sig (Elt F)) : regR V0 = Host.reduceAdd (mulf (mulf (broadcastInDim S255 ![] bcast_S_S255 (constant S_ .f32 0xBF000000#32)) (concatenate S255 0 [⟨S1, (broadcastInDim S1 ![] bcast_S_S1 (constant S_ .f32 0x3F800000#32))⟩, ⟨S2, (broadcastInDim S2 ![] bcast_S_S2 (constant S_ .f32 0x3F000000#32))⟩, ⟨S4, (broadcastInDim S4 ![] bcast_S_S4 (constant S_ .f32 0x3E800000#32))⟩, ⟨S8, (broadcastInDim S8 ![] bcast_S_S8 (constant S_ .f32 0x3E000000#32))⟩, ⟨S16, (broadcastInDim S16 ![] bcast_S_S16 (constant S_ .f32 0x3D800000#32))⟩, ⟨S32, (broadcastInDim S32 ![] bcast_S_S32 (constant S_ .f32 0x3D000000#32))⟩, ⟨S64, (broadcastInDim S64 ![] bcast_S_S64 (constant S_ .f32 0x3C800000#32))⟩, ⟨S128, (broadcastInDim S128 ![] bcast_S_S128 (constant S_ .f32 0x3C000000#32))⟩] concatenates_S1_S2_S4_S8_S16_S32_S64_S128_S255_d0)) (Host.divf (Host.reduceAdd (Host.log (maximumf (mulf (ValueP.res_main_v9 V0) (subf (broadcastInDim S65536x255 ![] bcast_S_S65536x255 (constant S_ .f32 0x3F800000#32)) (ValueP.res_main_v9 V0))) (broadcastInDim S65536x255 ![] bcast_S_S65536x255 (constant S_ .f32 0x3727C5AC#32)))) (constant S_ .f32 0x00000000#32) reducesTo_S65536x255_S255_d0 h_S_) (broadcastInDim S255 ![] bcast_S_S255 (constant S_ .f32 0x47800000#32)))) (constant S_ .f32 0x00000000#32) reducesTo_S255_S_d0 h_S_ := by
  unfold regR regOfR meanR logqR gatesR weightsR
  rw [res_main_v9_eq]

theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = outR (launchContents m c)
      ∧ r.2.mem ((c.tc : Thread nD τ).loc main_v105) = regR (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (outR_eq (launchContents m c)).symm,
      (h c).2.1.trans (regR_eq (launchContents m c)).symm, (h c).2.2⟩)
    (Cert.ReferenceIdeal.ValueP.run (F := F) m ρ)

end Cert.ReferenceIdeal.RefValue

end
-- ==== Proof.TileDefs.lean ====
/-
  Vocabulary shared by the value modules: which row of the whole batch a row of tile t is, what it means for four
  tile contents to be the blocks of the argument arrays at tile t, the array of per-tile column sums of the clamped
  log term, and the host lines after the launch as one function of that array.
-/
import proofs.«146501_j2989297238563_1_alg».proof.Proof.Gen.KernelIdeal.Skeleton
import proofs.«146501_j2989297238563_1_alg».proof.Proof.RefTerms
import Idealize.ShloMosaic.Lib.ValueIdx

set_option maxRecDepth 8192

noncomputable section

namespace Cert.KernelIdeal.Tile

open Cert.KernelIdeal Cert.KernelIdeal.Gen Idealize.ShloMosaic Idealize.ShloMosaic.ValueIdx
open Cert.ReferenceIdeal.RefValue (argX argW argB argL gatesR probsR outR logqR meanR weightsR regOfR regR)

/-- A valuation of the reference program's buffers: its argument arrays are read off it. -/
abbrev RV := Valuation Cert.ReferenceIdeal.τ Cert.ReferenceIdeal.sig (Elt Ideal)

/-- Row `r` of tile `t` is row `2048 t + r` of the whole batch. -/
abbrev grow (t : Fin 32) (r : Fin 2048) : Fin 65536 := ⟨t.val * 2048 + r.val, by omega⟩

/-- The four input tiles at grid point `t` are the blocks of the argument arrays there: rows 2048 t … 2048 t + 2047 of
    the inputs, and the whole split weights, bias (as one row) and leaf values. -/
structure TileOf (V0 : RV) (t : Fin 32) (x0 : Vec Ideal S2048x1024 .f32) (x1 : Vec Ideal S1024x255 .f32)
    (x2 : Vec Ideal S1x255 .f32) (x3 : Vec Ideal S256x128 .f32) : Prop where
  rows : ∀ (r : Fin 2048) (k : Fin 1024), x0 (ix2 r k) = argX V0 (ix2 (grow t r) k)
  split : ∀ (k : Fin 1024) (n : Fin 255), x1 (ix2 k n) = argW V0 (ix2 k n)
  bias : ∀ (n : Fin 255), x2 (ix2 (0 : Fin 1) n) = argB V0 (ix1 n)
  leaf : ∀ (j : Fin 256) (q : Fin 128), x3 (ix2 j q) = argL V0 (ix2 j q)

/-- The per-tile column sums of the clamped log term: entry (t, 0, n) sums node n's term over the rows of tile t. -/
def partR (V0 : RV) : FVec Ideal S32x1x255 .f32 :=
  fun i => ∑ r : Fin 2048, logqR V0 (ix2 (grow (i 0) r) (i 2))

/-- The host lines after the launch, from the array of per-tile sums: the sum over the tiles, scaled by 2^-16, -/
def meanK (P : FVec Ideal S32x1x255 .f32) : FVec Ideal S255 .f32 :=
  mulf (shapeCast S255 (Host.reduceAdd P (constant S_ .f32 0x00000000#32) reducesTo_S32x1x255_S1x255_d0 h_S_) shapeCasts_S1x255_S255)
    (broadcastInDim S255 ![] bcast_S_S255 (constant S_ .f32 0x37800000#32))

/-- the level weights 2^-d in level order, -/
def weightsK : FVec Ideal S255 .f32 :=
  (concatenate S255 0 [⟨S1, (broadcastInDim S1 ![] bcast_S_S1 (constant S_ .f32 0x3F800000#32))⟩, ⟨S2, (broadcastInDim S2 ![] bcast_S_S2 (constant S_ .f32 0x3F000000#32))⟩, ⟨S4, (broadcastInDim S4 ![] bcast_S_S4 (constant S_ .f32 0x3E800000#32))⟩, ⟨S8, (broadcastInDim S8 ![] bcast_S_S8 (constant S_ .f32 0x3E000000#32))⟩, ⟨S16, (broadcastInDim S16 ![] bcast_S_S16 (constant S_ .f32 0x3D800000#32))⟩, ⟨S32, (broadcastInDim S32 ![] bcast_S_S32 (constant S_ .f32 0x3D000000#32))⟩, ⟨S64, (broadcastInDim S64 ![] bcast_S_S64 (constant S_ .f32 0x3C800000#32))⟩, ⟨S128, (broadcastInDim S128 ![] bcast_S_S128 (constant S_ .f32 0x3C000000#32))⟩] concatenates_S1_S2_S4_S8_S16_S32_S64_S128_S255_d0)

/-- and the weighted sum over the nodes. -/
def regOfK (z : FVec Ideal S255 .f32) : FVec Ideal S_ .f32 :=
  Host.reduceAdd (mulf (mulf (broadcastInDim S255 ![] bcast_S_S255 (constant S_ .f32 0xBF000000#32)) weightsK) z) (constant S_ .f32 0x00000000#32) reducesTo_S255_S_d0 h_S_

def regK (P : FVec Ideal S32x1x255 .f32) : FVec Ideal S_ .f32 := regOfK (meanK P)

end Cert.KernelIdeal.Tile

end
-- ==== Proof.Blocks.lean ====
/-
  Each input block of the pipeline at grid point t is the matching part of its argument array: rows 2048 t … 2048 t + 2047
  of the inputs, and the whole split weights, bias (reshaped to one row by the host line before the launch) and leaf
  values. So the four tile contents the body sees at point t are the tile of the argument arrays there.
-/
import proofs.«146501_j2989297238563_1_alg».proof.Proof.KernelIdealFrame
import proofs.«146501_j2989297238563_1_alg».proof.Proof.TileDefs
import Idealize.ShloMosaic.Lib.Pipeline.Value
import Idealize.ShloMosaic.Lib.StableHlo.Run

set_option maxRecDepth 8192

noncomputable section

namespace Cert.KernelIdeal.Final

open Cert.KernelIdeal Cert.KernelIdeal.Gen Cert.KernelIdeal.Frm Cert.KernelIdeal.Tile
open Idealize.ShloMosaic Idealize.ShloMosaic.TcCoe Idealize.SL.Sem Idealize.ShloMosaic.ValueIdx
open Cert.ReferenceIdeal.RefValue (argX argW argB argL)

variable (m : (ℓ : Loc nD τ sig) → Buf (Elt Ideal) ℓ)

/-- A valuation of the reference's buffers carries the kernel's launch contents at the four arguments. -/
structure Agrees (c : Dev nD) (V0 : RV) : Prop where
  a0 : argX V0 = m ((c.tc : Thread nD τ).loc main_arg0)
  a1 : argW V0 = m ((c.tc : Thread nD τ).loc main_arg1)
  a2 : argB V0 = m ((c.tc : Thread nD τ).loc main_arg2)
  a3 : argL V0 = m ((c.tc : Thread nD τ).loc main_arg3)

/-- The printed index maps over the grid: the inputs' block moves with the point along the rows and stays at column
    block 0; the split weights, the bias row and the leaf values stay at block (0, 0). -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The inputs' block at point t, at entry x, is the input array at row 2048 t + x₀ and column x₁. -/
private theorem blk0_apply (c : Dev nD) (t : Fin cfg0.N) (x : S2048x1024.Idx) (i : S65536x1024.Idx)
    (h0 : (i 0).val = t.val * 2048 + (x 0).val) (h1 : (i 1).val = (x 1).val) :
    (iblk m c 0 t : Vec Ideal S2048x1024 .f32) x = (m ((c.tc : Thread nD τ).loc main_arg0) : S65536x1024.Idx → Elt Ideal .f32) i := by
  obtain ⟨e0, e1, -⟩ := idx_facts t
  show V m c main_arg0 (((cfg0.win 0).blk t).view.emb x) = _
  rw [V_main_arg0]
  refine congrArg _ (funext fun a => Fin.ext ?_)
  match a with
  | ⟨0, _⟩ => show win0_0.index t (0 : Fin 2) * 2048 + 1 * (x 0).val = (i 0).val; rw [e0, h0]; omega
  | ⟨1, _⟩ => show win0_0.index t (1 : Fin 2) * 1024 + 1 * (x 1).val = (i 1).val; rw [e1, h1]; omega

/-- The split weights' block at any point is the whole array. -/
private theorem blk1_apply (c : Dev nD) (t : Fin cfg0.N) (x : S1024x255.Idx) :
    (iblk m c 1 t : Vec Ideal S1024x255 .f32) x = (m ((c.tc : Thread nD τ).loc main_arg1) : S1024x255.Idx → Elt Ideal .f32) x := by
  obtain ⟨-, -, e0, e1, -⟩ := idx_facts t
  show V m c main_arg1 (((cfg0.win 1).blk t).view.emb x) = _
  rw [V_main_arg1]
  refine congrArg _ (funext fun a => Fin.ext ?_)
  match a with
  | ⟨0, _⟩ => show win0_1.index t (0 : Fin 2) * 1024 + 1 * (x 0).val = (x 0).val; rw [e0]; omega
  | ⟨1, _⟩ => show win0_1.index t (1 : Fin 2) * 255 + 1 * (x 1).val = (x 1).val; rw [e1]; omega

/-- The bias row's block at any point is the whole one-row array the host line before the launch wrote. -/
private theorem blk2_apply (c : Dev nD) (t : Fin cfg0.N) (x : S1x255.Idx) :
    (iblk m c 2 t : Vec Ideal S1x255 .f32) x = (V m c main_v0 : S1x255.Idx → Elt Ideal .f32) x := by
  obtain ⟨-, -, -, -, e0, e1, -⟩ := idx_facts t
  show V m c main_v0 (((cfg0.win 2).blk t).view.emb x) = _
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 255 + 1 * (x 1).val = (x 1).val; rw [e1]; omega

/-- The leaf values' block at any point is the whole array. -/
private theorem blk3_apply (c : Dev nD) (t : Fin cfg0.N) (x : S256x128.Idx) :
    (iblk m c 3 t : Vec Ideal S256x128 .f32) x = (m ((c.tc : Thread nD τ).loc main_arg3) : S256x128.Idx → Elt Ideal .f32) x := by
  obtain ⟨-, -, -, -, -, -, e0, e1⟩ := idx_facts t
  show V m c main_arg3 (((cfg0.win 3).blk t).view.emb x) = _
  rw [V_main_arg3]
  refine congrArg _ (funext fun a => Fin.ext ?_)
  match a with
  | ⟨0, _⟩ => show win0_3.index t (0 : Fin 2) * 256 + 1 * (x 0).val = (x 0).val; rw [e0]; omega
  | ⟨1, _⟩ => show win0_3.index t (1 : Fin 2) * 128 + 1 * (x 1).val = (x 1).val; rw [e1]; omega

/-- The one-row bias array the region finds is the bias argument reshaped to [1, 255]. -/
private theorem bias_row (c : Dev nD) :
    (V m c main_v0 : S1x255.Idx → Elt Ideal .f32)
      = shapeCast S1x255 (m ((c.tc : Thread nD τ).loc main_arg2) : S255.Idx → Elt Ideal .f32) shapeCasts_S255_S1x255 := by
  dsimp only [Frm.V, Frm.V0]
  simp only [hostOps0, List.flatten_cons, List.flatten_nil, List.append_nil]
  after_results
  rfl

/-- The four input blocks at point t are the tile of the argument arrays at t. -/
theorem tile_of (c : Dev nD) (V0 : RV) (hag : Agrees m c V0) (t : Fin cfg0.N) :
    TileOf V0 ⟨t.val, (Nat.lt_of_lt_of_eq t.isLt N_0)⟩
      (iblk m c 0 t) (iblk m c 1 t) (iblk m c 2 t) (iblk m c 3 t) := by
  refine ⟨fun r k => ?_, fun k n => ?_, fun n => ?_, fun j q => ?_⟩
  · exact (blk0_apply m c t (ix2 r k) (ix2 (grow ⟨t.val, Nat.lt_of_lt_of_eq t.isLt N_0⟩ r) k) rfl rfl).trans (congrFun hag.a0.symm _)
  · exact (blk1_apply m c t (ix2 k n)).trans (congrFun hag.a1.symm _)
  · refine (blk2_apply m c t (ix2 (0 : Fin 1) n)).trans ?_
    refine (congrFun (bias_row m c) _).trans ?_
    refine (shapeCast_apply _ shapeCasts_S255_S1x255 (ix2 (0 : Fin 1) n) (ix1 n) ?_).trans (congrFun hag.a2.symm _)
    rw [Shape.rowMajor_val_one, Shape.rowMajor_val_two]
    show n.val = 0 * 255 + n.val
    omega
  · exact (blk3_apply m c t (ix2 j q)).trans (congrFun hag.a3.symm _)

end Cert.KernelIdeal.Final

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.TileGates.lean ====
/-
  The gate probabilities of a tile, and the tile's column sums of the clamped log term, read at one entry.
-/
import proofs.«146501_j2989297238563_1_alg».proof.Proof.TileDefs
import proofs.«146501_j2989297238563_1_alg».proof.Proof.LibPlainDot
import Idealize.ShloMosaic.Lib.Pipeline.Value
import Idealize.ShloMosaic.PureOps.Ideal.Laws
import Idealize.ShloMosaic.Lib.ValueLayout
import Idealize.ShloMosaic.Lib.IdealHost

set_option maxRecDepth 8192

noncomputable section

namespace Cert.KernelIdeal.Tile

open Cert.KernelIdeal Cert.KernelIdeal.Gen Idealize.ShloMosaic Idealize.ShloMosaic.ValueIdx
open Cert.ReferenceIdeal.RefValue (argX argW argB argL gatesR probsR outR logqR)

/-- The host's spelling 1 / (1 + exp (-z)) of the logistic, the ones being broadcast literals, read at an index: the
    logistic of the entry. -/
private theorem host_logistic_apply {s : Shape} (h1 : (⟨0, ![]⟩ : Shape).BroadcastsInDim s ![]) (z : FVec Ideal s .f32)
    (i : s.Idx) :
    Host.divf (broadcastInDim s ![] h1 (constant (F := Ideal) ⟨0, ![]⟩ .f32 0x3F800000#32))
      (addf (broadcastInDim s ![] h1 (constant (F := Ideal) ⟨0, ![]⟩ .f32 0x3F800000#32)) (Host.exp (Host.negf z))) i
      = Ideal.logistic (z i) := by
  show Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(z i))) = _
  rw [broadcastInDim_scalar_apply, constant_apply, Ideal.ofBits_one_f32]
  rfl

/-- A [b] array broadcast to [1, b] along axis 1 and then to [a, b] along axes 0 and 1 reads, at (p, c), the operand
    at c. -/
private theorem bcast_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  refine (broadcastInDim_apply ![0, 1] h2 _ (ix2 p c) (ix2 (0 : Fin 1) c) fun ax => ?_).trans ?_
  · match ax with
    | ⟨0, _⟩ => rfl
    | ⟨1, _⟩ =>
      show c.val = if b = 1 then 0 else c.val
      split
      · have := c.isLt; omega
      · rfl
  · refine broadcastInDim_apply ![1] h1 v (ix2 (0 : Fin 1) c) (ix1 c) fun ax => ?_
    match ax with
    | ⟨0, _⟩ =>
      show c.val = if b = 1 then 0 else c.val
      split
      · have := c.isLt; omega
      · rfl

/-- The sum over axis 0 of an [a, b] array, at column c: the sum over the rows p of entry (p, c). -/
private theorem colsum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (c : Fin b) :
    multiReduction (F := Ideal) .add [0] ⟨1, ![b]⟩ src 0x00000000#32 h hφ hacc (ix1 c) = ∑ p : Fin a, src (ix2 p c) := by
  refine (Ideal.multiReduction_add_single src 0x00000000#32 h hφ hacc (ix1 c)).trans ?_
  refine Finset.sum_congr rfl fun p _ => congrArg src (funext fun ax => Fin.ext ?_)
  match ax with
  | ⟨0, _⟩ => rfl
  | ⟨1, _⟩ => rfl

/-- The tile's gate at (r, n): the logistic of row r of the input tile against column n of the split weights, plus the
    bias row at n. The narrowing of the operands is the identity over the extended reals. -/
private theorem tile_gate_score (x0 : Vec Ideal S2048x1024 .f32) (x1 : Vec Ideal S1024x255 .f32)
    (x2 : Vec Ideal S1x255 .f32) (r : Fin 2048) (n : Fin 255) :
    k0_pay2 (F := Ideal) x0 x1 x2 (ix2 r n)
      = Ideal.logistic ((∑ k : Fin 1024, x0 (ix2 r k) * x1 (ix2 k n)) + x2 (ix2 (0 : Fin 1) n)) := by
  show Ideal.logistic
      (FloatOps.matmul (DotDims.plain 2048 1024 255) none (truncf (F := Ideal) .bf16 x0 bitsLt_bf16_f32)
          (truncf (F := Ideal) .bf16 x1 bitsLt_bf16_f32) (constant (F := Ideal) ⟨2, ![2048, 255]⟩ .f32 0x00000000#32) (ix2 r n)
        + broadcastTo ⟨2, ![2048, 255]⟩ (shapeCast ⟨2, ![1, 255]⟩ x2 shapeCasts_S1x255_S1x255) broadcasts_S1x255_S2048x255 (ix2 r n))
      = _
  rw [Cert.Lib.PlainDot.matmul_zero_apply, broadcastTo_1b_ab_apply, shapeCast_self]
  rfl

/-- The reference's gate at (R, n): the logistic of row R of the inputs against column n of the split weights, plus
    the bias at n. -/
private theorem ref_gate_score (V0 : RV) (R : Fin 65536) (n : Fin 255) :
    gatesR V0 (ix2 R n)
      = Ideal.logistic ((∑ k : Fin 1024, argX V0 (ix2 R k) * argW V0 (ix2 k n)) + argB V0 (ix1 n)) := by
  unfold gatesR Cert.ReferenceIdeal.RefValue.res_main_v9
  refine (host_logistic_apply _ _ _).trans (congrArg Ideal.logistic ?_)
  show FloatOps.dotGeneral (DotDims.plain 65536 1024 255) none .single (argX V0) (argW V0) (ix2 R n)
      + broadcastInDim ⟨2, ![65536, 255]⟩ ![0, 1] Cert.ReferenceIdeal.Gen.bcast_S1x255_S65536x255_0_1
          (broadcastInDim ⟨2, ![1, 255]⟩ ![1] Cert.ReferenceIdeal.Gen.bcast_S255_S1x255_1 (argB V0)) (ix2 R n) = _
  rw [Cert.Lib.PlainDot.dotGeneral_apply, bcast_row_apply]

/-- Row r of the tile's gate probabilities is row 2048 t + r of the reference's: the same affine score (a matrix
    product into a zero accumulator against the host's contraction, the bias broadcast along the rows) under the
    logistic, which the host spells 1 / (1 + exp (-z)). -/
theorem tile_gates {V0 : RV} {t : Fin 32} {x0 : Vec Ideal S2048x1024 .f32} {x1 : Vec Ideal S1024x255 .f32}
    {x2 : Vec Ideal S1x255 .f32} {x3 : Vec Ideal S256x128 .f32} (h : TileOf V0 t x0 x1 x2 x3) (r : Fin 2048) (n : Fin 255) :
    k0_pay2 (F := Ideal) x0 x1 x2 (ix2 r n) = gatesR V0 (ix2 (grow t r) n) := by
  have hs : (∑ k : Fin 1024, x0 (ix2 r k) * x1 (ix2 k n))
      = ∑ k : Fin 1024, argX V0 (ix2 (grow t r) k) * argW V0 (ix2 k n) :=
    Finset.sum_congr rfl fun k _ => by rw [h.rows r k, h.split k n]
  rw [tile_gate_score, ref_gate_score, hs, h.bias n]

/-- The tile's stored column sums: entry (0, 0, n) is the sum over the tile's rows of the clamped log term. -/
theorem tile_logsum {V0 : RV} {t : Fin 32} {x0 : Vec Ideal S2048x1024 .f32} {x1 : Vec Ideal S1024x255 .f32}
    {x2 : Vec Ideal S1x255 .f32} {x3 : Vec Ideal S256x128 .f32} (h : TileOf V0 t x0 x1 x2 x3) (n : Fin 255) :
    k0_pay3 (F := Ideal) x0 x1 x2 (ix3 (0 : Fin 1) (0 : Fin 1) n) = ∑ r : Fin 2048, logqR V0 (ix2 (grow t r) n) := by
  unfold k0_pay3
  refine (shapeCast_ab_1ab_apply _ _ (0 : Fin 1) (0 : Fin 1) n).trans ?_
  refine (shapeCast_a_1a_apply _ _ (0 : Fin 1) n).trans ?_
  refine (colsum_apply _ _ _ _ n).trans ?_
  refine Finset.sum_congr rfl fun p _ => ?_
  show Ideal.log (max (k0_pay2 (F := Ideal) x0 x1 x2 (ix2 p n)
        * (Ideal.ofBits .f32 0x3F800000#32 - k0_pay2 (F := Ideal) x0 x1 x2 (ix2 p n))) (Ideal.ofBits .f32 0x3727C5AC#32)) = _
  rw [tile_gates h p n]
  unfold logqR
  show _ = Ideal.log (max (gatesR V0 (ix2 (grow t p) n)
        * (broadcastInDim ⟨2, ![65536, 255]⟩ ![] Cert.ReferenceIdeal.Gen.bcast_S_S65536x255
              (constant (F := Ideal) ⟨0, ![]⟩ .f32 0x3F800000#32) (ix2 (grow t p) n) - gatesR V0 (ix2 (grow t p) n)))
      (broadcastInDim ⟨2, ![65536, 255]⟩ ![] Cert.ReferenceIdeal.Gen.bcast_S_S65536x255
          (constant (F := Ideal) ⟨0, ![]⟩ .f32 0x3727C5AC#32) (ix2 (grow t p) n)))
  rw [broadcastInDim_scalar_apply, broadcastInDim_scalar_apply]
  rfl

end Cert.KernelIdeal.Tile

end
-- ==== Proof.LibTreeLevel.lean ====
/-
  One level of a soft binary tree's routing, read at one entry, in the two spellings a program gives it.

  Given the routing probabilities of the 2^d nodes of a level as an [R, k] array and the level's gates, the next level
  interleaves the left products and the right products: entry (r, j) of the [R, 2k] result is the left array's entry
  (r, j / 2) when j is even and the right array's when j is odd. A kernel spells it as two casts to [R, k, 1], a
  concatenation along the new axis and a cast to [R, 2k]; the host as two broadcasts into [R, k, 1], the same
  concatenation and a reshape. A column slice of a matrix reads the shifted column. Generic in the extents.
-/
import Idealize.ShloMosaic.Lib.Pipeline.Value
import Idealize.ShloMosaic.Lib.ValueIdx
import Idealize.ShloMosaic.PureOps.Ideal.Laws

set_option maxRecDepth 8192

noncomputable section

namespace Cert.Lib.TreeLevel

open Idealize.ShloMosaic Idealize.ShloMosaic.ValueIdx

variable {α : Type} (R k k2 : Nat)

/-- Entry (r, q, c) of an [R, k, 2] array and entry (r, 2q + c) of an [R, 2k] array sit at the same row-major position. -/
private theorem pos_split (r : Fin R) (j : Fin (2 * k)) (c : Nat) (hc : c < 2) (hj : j.val = 2 * (j.val / 2) + c) :
    ((⟨3, ![R, k, 2]⟩ : Shape).rowMajor (ix3 r (⟨j.val / 2, by have := j.isLt; omega⟩ : Fin k) (⟨c, hc⟩ : Fin 2))).val
      = ((⟨2, ![R, 2 * k]⟩ : Shape).rowMajor (ix2 r j)).val := by
  rw [Shape.rowMajor_val_three, Shape.rowMajor_val_two]
  show (r.val * k + j.val / 2) * 2 + c = r.val * (2 * k) + j.val
  have e := Nat.mul_left_comm r.val 2 k
  omega

/-- Entry (r, q) of an [R, k] array and entry (r, q, 0) of an [R, k, 1] array sit at the same row-major position. -/
private theorem pos_unit (r : Fin R) (q : Fin k) :
    ((⟨2, ![R, k]⟩ : Shape).rowMajor (ix2 r q)).val
      = ((⟨3, ![R, k, 1]⟩ : Shape).rowMajor (ix3 r q (⟨0, Nat.one_pos⟩ : Fin 1))).val := by
  rw [Shape.rowMajor_val_three, Shape.rowMajor_val_two]
  show r.val * k + q.val = (r.val * k + q.val) * 1 + 0
  omega

/-- A broadcast of an [R, k] array into [R, k, 1] along axes 0 and 1 reads entry (r, q) at entry (r, q, 0): on an axis of
    extent one the only coordinate is zero. -/
private theorem bcast_coord (r : Fin R) (q : Fin k) (c : Fin (⟨2, ![R, k]⟩ : Shape).rank) :
    ((ix2 r q : (⟨2, ![R, k]⟩ : Shape).Idx) c).val
      = if (⟨2, ![R, k]⟩ : Shape).size c = 1 then 0
        else ((ix3 r q (⟨0, Nat.one_pos⟩ : Fin 1) : (⟨3, ![R, k, 1]⟩ : Shape).Idx) ((![0, 1] : Fin 2 → Fin 3) c)).val := by
  match c with
  | ⟨0, _⟩ =>
    show r.val = if R = 1 then 0 else r.val
    have := r.isLt
    split <;> omega
  | ⟨1, _⟩ =>
    show q.val = if k = 1 then 0 else q.val
    have := q.isLt
    split <;> omega

/-- The kernel's spelling: casts to [R, k, 1], concatenation along axis 2, cast to [R, 2k]. -/
theorem interleave_cast (hk : k2 = 2 * k) (a b : (⟨2, ![R, k]⟩ : Shape).Idx → α)
    (h1 : (⟨2, ![R, k]⟩ : Shape).ShapeCasts ⟨3, ![R, k, 1]⟩)
    (hc : Shape.Concatenates [(⟨3, ![R, k, 1]⟩ : Shape), ⟨3, ![R, k, 1]⟩] ⟨3, ![R, k, 2]⟩ 2)
    (h2 : (⟨3, ![R, k, 2]⟩ : Shape).ShapeCasts ⟨2, ![R, k2]⟩) (r : Fin R) (j : Fin k2) :
    shapeCast ⟨2, ![R, k2]⟩ (concatenate ⟨3, ![R, k, 2]⟩ 2
        [⟨⟨3, ![R, k, 1]⟩, shapeCast ⟨3, ![R, k, 1]⟩ a h1⟩, ⟨⟨3, ![R, k, 1]⟩, shapeCast ⟨3, ![R, k, 1]⟩ b h1⟩] hc) h2 (ix2 r j)
      = if j.val % 2 = 0 then a (ix2 r ⟨j.val / 2, by omega⟩) else b (ix2 r ⟨j.val / 2, by omega⟩) := by
  subst hk
  have hq : j.val / 2 < k := by have := j.isLt; omega
  by_cases hm : j.val % 2 = 0
  · rw [if_pos hm]
    refine (shapeCast_apply _ h2 (ix2 r j) (ix3 r ⟨j.val / 2, hq⟩ (⟨0, Nat.zero_lt_two⟩ : Fin 2)) (pos_split R k r j 0 Nat.zero_lt_two (by show j.val = 2 * (j.val / 2) + 0; omega))).trans ?_
    refine (concatenate_pair_apply_left (t := ⟨3, ![R, k, 2]⟩) (s₁ := ⟨3, ![R, k, 1]⟩) (s₂ := ⟨3, ![R, k, 1]⟩) (2 : Fin 3) _ _ hc (ix3 r ⟨j.val / 2, hq⟩ (⟨0, Nat.zero_lt_two⟩ : Fin 2)) rfl (ix3 r ⟨j.val / 2, hq⟩ (⟨0, Nat.one_pos⟩ : Fin 1)) (fun c => by
      match c with | ⟨0, _⟩ => rfl | ⟨1, _⟩ => rfl | ⟨2, _⟩ => rfl)).trans ?_
    exact shapeCast_apply a h1 _ (ix2 r ⟨j.val / 2, hq⟩) (pos_unit R k r ⟨j.val / 2, hq⟩)
  · rw [if_neg hm]
    refine (shapeCast_apply _ h2 (ix2 r j) (ix3 r ⟨j.val / 2, hq⟩ (⟨1, Nat.one_lt_two⟩ : Fin 2)) (pos_split R k r j 1 Nat.one_lt_two (by show j.val = 2 * (j.val / 2) + 1; omega))).trans ?_
    refine (concatenate_pair_apply_right (t := ⟨3, ![R, k, 2]⟩) (s₁ := ⟨3, ![R, k, 1]⟩) (s₂ := ⟨3, ![R, k, 1]⟩) (2 : Fin 3) _ _ hc (ix3 r ⟨j.val / 2, hq⟩ (⟨1, Nat.one_lt_two⟩ : Fin 2)) rfl rfl (ix3 r ⟨j.val / 2, hq⟩ (⟨0, Nat.one_pos⟩ : Fin 1)) (fun c hc2 => by
      match c, hc2 with | ⟨0, _⟩, _ => rfl | ⟨1, _⟩, _ => rfl | ⟨2, _⟩, h => exact absurd rfl h) rfl).trans ?_
    exact shapeCast_apply b h1 _ (ix2 r ⟨j.val / 2, hq⟩) (pos_unit R k r ⟨j.val / 2, hq⟩)

/-- The host's spelling: broadcasts into [R, k, 1] along axes 0 and 1, the same concatenation, a reshape. -/
theorem interleave_bcast (hk : k2 = 2 * k) (a b : (⟨2, ![R, k]⟩ : Shape).Idx → α)
    (hb : (⟨2, ![R, k]⟩ : Shape).BroadcastsInDim ⟨3, ![R, k, 1]⟩ ![0, 1])
    (hc : Shape.Concatenates [(⟨3, ![R, k, 1]⟩ : Shape), ⟨3, ![R, k, 1]⟩] ⟨3, ![R, k, 2]⟩ 2)
    (h2 : (⟨3, ![R, k, 2]⟩ : Shape).ShapeCasts ⟨2, ![R, k2]⟩) (r : Fin R) (j : Fin k2) :
    shapeCast ⟨2, ![R, k2]⟩ (concatenate ⟨3, ![R, k, 2]⟩ 2
        [⟨⟨3, ![R, k, 1]⟩, broadcastInDim ⟨3, ![R, k, 1]⟩ ![0, 1] hb a⟩, ⟨⟨3, ![R, k, 1]⟩, broadcastInDim ⟨3, ![R, k, 1]⟩ ![0, 1] hb b⟩] hc) h2 (ix2 r j)
      = if j.val % 2 = 0 then a (ix2 r ⟨j.val / 2, by omega⟩) else b (ix2 r ⟨j.val / 2, by omega⟩) := by
  subst hk
  have hq : j.val / 2 < k := by have := j.isLt; omega
  by_cases hm : j.val % 2 = 0
  · rw [if_pos hm]
    refine (shapeCast_apply _ h2 (ix2 r j) (ix3 r ⟨j.val / 2, hq⟩ (⟨0, Nat.zero_lt_two⟩ : Fin 2)) (pos_split R k r j 0 Nat.zero_lt_two (by show j.val = 2 * (j.val / 2) + 0; omega))).trans ?_
    refine (concatenate_pair_apply_left (t := ⟨3, ![R, k, 2]⟩) (s₁ := ⟨3, ![R, k, 1]⟩) (s₂ := ⟨3, ![R, k, 1]⟩) (2 : Fin 3) _ _ hc (ix3 r ⟨j.val / 2, hq⟩ (⟨0, Nat.zero_lt_two⟩ : Fin 2)) rfl (ix3 r ⟨j.val / 2, hq⟩ (⟨0, Nat.one_pos⟩ : Fin 1)) (fun c => by
      match c with | ⟨0, _⟩ => rfl | ⟨1, _⟩ => rfl | ⟨2, _⟩ => rfl)).trans ?_
    exact broadcastInDim_apply (s := ⟨2, ![R, k]⟩) (t := ⟨3, ![R, k, 1]⟩) ![0, 1] hb a _ (ix2 r ⟨j.val / 2, hq⟩) (bcast_coord R k r ⟨j.val / 2, hq⟩)
  · rw [if_neg hm]
    refine (shapeCast_apply _ h2 (ix2 r j) (ix3 r ⟨j.val / 2, hq⟩ (⟨1, Nat.one_lt_two⟩ : Fin 2)) (pos_split R k r j 1 Nat.one_lt_two (by show j.val = 2 * (j.val / 2) + 1; omega))).trans ?_
    refine (concatenate_pair_apply_right (t := ⟨3, ![R, k, 2]⟩) (s₁ := ⟨3, ![R, k, 1]⟩) (s₂ := ⟨3, ![R, k, 1]⟩) (2 : Fin 3) _ _ hc (ix3 r ⟨j.val / 2, hq⟩ (⟨1, Nat.one_lt_two⟩ : Fin 2)) rfl rfl (ix3 r ⟨j.val / 2, hq⟩ (⟨0, Nat.one_pos⟩ : Fin 1)) (fun c hc2 => by
      match c, hc2 with | ⟨0, _⟩, _ => rfl | ⟨1, _⟩, _ => rfl | ⟨2, _⟩, h => exact absurd rfl h) rfl).trans ?_
    exact broadcastInDim_apply (s := ⟨2, ![R, k]⟩) (t := ⟨3, ![R, k, 1]⟩) ![0, 1] hb b _ (ix2 r ⟨j.val / 2, hq⟩) (bcast_coord R k r ⟨j.val / 2, hq⟩)

/-- Columns o … o + k - 1 of an [R, n] matrix, at entry (r, j): the matrix at (r, o + j). -/
theorem slice_cols (n o : Nat) (hon : o + k ≤ n) (P : (⟨2, ![R, n]⟩ : Shape).Idx → α)
    (hs : (⟨2, ![R, n]⟩ : Shape).Slices ![0, o] ⟨2, ![R, k]⟩) (r : Fin R) (j : Fin k) :
    extractStridedSlice ⟨2, ![R, k]⟩ ![0, o] P hs (ix2 r j) = P (ix2 r ⟨o + j.val, by omega⟩) := by
  refine extractStridedSlice_apply (s := ⟨2, ![R, n]⟩) (t := ⟨2, ![R, k]⟩) ![0, o] P hs (ix2 r j) (ix2 r ⟨o + j.val, by omega⟩) (fun c => ?_)
  match c with
  | ⟨0, _⟩ => show r.val = 0 + r.val; omega
  | ⟨1, _⟩ => rfl

/-- One level of the routing in both spellings, at one entry. When a tile's gates and parent probabilities are rows
    `row r` of the whole batch's, so are its children's: the kernel's level (slice the level's gates out of the gate
    matrix, form (1 - p) · parent and p · parent, interleave them by casts) at entry (r, j) is the host's level (the
    same with broadcasts and a reshape) at entry (row r, j). -/
theorem level_step (R N n k k2 o : Nat) (hk : k2 = 2 * k) (hon : o + k ≤ n) (row : Fin R → Fin N)
    (gK : FVec Ideal ⟨2, ![R, n]⟩ .f32) (gR : FVec Ideal ⟨2, ![N, n]⟩ .f32)
    (hg : ∀ (r : Fin R) (c : Fin n), gK (ix2 r c) = gR (ix2 (row r) c))
    (pK : FVec Ideal ⟨2, ![R, k]⟩ .f32) (pR : FVec Ideal ⟨2, ![N, k]⟩ .f32)
    (hp : ∀ (r : Fin R) (j : Fin k), pK (ix2 r j) = pR (ix2 (row r) j)) (w : BitVec 32)
    (hsK : (⟨2, ![R, n]⟩ : Shape).Slices ![0, o] ⟨2, ![R, k]⟩) (hsR : (⟨2, ![N, n]⟩ : Shape).Slices ![0, o] ⟨2, ![N, k]⟩)
    (h1 : (⟨2, ![R, k]⟩ : Shape).ShapeCasts ⟨3, ![R, k, 1]⟩)
    (hb : (⟨2, ![N, k]⟩ : Shape).BroadcastsInDim ⟨3, ![N, k, 1]⟩ ![0, 1])
    (hb0 : (⟨0, ![]⟩ : Shape).BroadcastsInDim ⟨2, ![N, k]⟩ ![])
    (hcK : Shape.Concatenates [(⟨3, ![R, k, 1]⟩ : Shape), ⟨3, ![R, k, 1]⟩] ⟨3, ![R, k, 2]⟩ 2)
    (hcR : Shape.Concatenates [(⟨3, ![N, k, 1]⟩ : Shape), ⟨3, ![N, k, 1]⟩] ⟨3, ![N, k, 2]⟩ 2)
    (h2K : (⟨3, ![R, k, 2]⟩ : Shape).ShapeCasts ⟨2, ![R, k2]⟩) (h2R : (⟨3, ![N, k, 2]⟩ : Shape).ShapeCasts ⟨2, ![N, k2]⟩)
    (r : Fin R) (j : Fin k2) :
    (shapeCast ⟨2, ![R, k2]⟩ (concatenate ⟨3, ![R, k, 2]⟩ 2
        [⟨⟨3, ![R, k, 1]⟩, shapeCast ⟨3, ![R, k, 1]⟩
            (mulf (subf (broadcast ⟨2, ![R, k]⟩ (Scalar.ofBits (F := Ideal) .f32 w)) (extractStridedSlice ⟨2, ![R, k]⟩ ![0, o] gK hsK)) pK) h1⟩,
         ⟨⟨3, ![R, k, 1]⟩, shapeCast ⟨3, ![R, k, 1]⟩ (mulf (extractStridedSlice ⟨2, ![R, k]⟩ ![0, o] gK hsK) pK) h1⟩] hcK) h2K
      : FVec Ideal ⟨2, ![R, k2]⟩ .f32) (ix2 r j)
      = (shapeCast ⟨2, ![N, k2]⟩ (concatenate ⟨3, ![N, k, 2]⟩ 2
        [⟨⟨3, ![N, k, 1]⟩, broadcastInDim ⟨3, ![N, k, 1]⟩ ![0, 1] hb
            (mulf (subf (broadcastInDim ⟨2, ![N, k]⟩ ![] hb0 (constant (F := Ideal) ⟨0, ![]⟩ .f32 w)) (extractStridedSlice ⟨2, ![N, k]⟩ ![0, o] gR hsR)) pR)⟩,
         ⟨⟨3, ![N, k, 1]⟩, broadcastInDim ⟨3, ![N, k, 1]⟩ ![0, 1] hb (mulf (extractStridedSlice ⟨2, ![N, k]⟩ ![0, o] gR hsR) pR)⟩] hcR) h2R
      : FVec Ideal ⟨2, ![N, k2]⟩ .f32) (ix2 (row r) j) := by
  have hq : j.val / 2 < k := by have := j.isLt; omega
  rw [interleave_cast R k k2 hk _ _ h1 hcK h2K r j, interleave_bcast N k k2 hk _ _ hb hcR h2R (row r) j]
  have e1 := slice_cols R k n o hon gK hsK r ⟨j.val / 2, hq⟩
  have e2 := slice_cols N k n o hon gR hsR (row r) ⟨j.val / 2, hq⟩
  have e3 := hg r ⟨o + j.val / 2, by omega⟩
  have e4 := hp r ⟨j.val / 2, hq⟩
  by_cases hm : j.val % 2 = 0
  · rw [if_pos hm, if_pos hm, mulf_apply, mulf_apply, subf_apply, subf_apply, e1, e2, e3, e4, broadcast_apply]
    rfl
  · rw [if_neg hm, if_neg hm, mulf_apply, mulf_apply, e1, e2, e3, e4]

end Cert.Lib.TreeLevel

end
-- ==== Proof.TileOut.lean ====
/-
  The leaf mixture a tile stores, read at one entry: row r of tile t is row 2048 t + r of the reference's result.
-/
import proofs.«146501_j2989297238563_1_alg».proof.Proof.TileGates
import proofs.«146501_j2989297238563_1_alg».proof.Proof.LibTreeLevel
import proofs.«146501_j2989297238563_1_alg».proof.Proof.LibPlainDot
import Idealize.ShloMosaic.Lib.Pipeline.Value
import Idealize.ShloMosaic.PureOps.Ideal.Laws

set_option maxRecDepth 8192

noncomputable section

namespace Cert.KernelIdeal.Tile

open Cert.KernelIdeal Cert.KernelIdeal.Gen Idealize.ShloMosaic Idealize.ShloMosaic.ValueIdx
open Cert.ReferenceIdeal.RefValue (argX argW argB argL gatesR probsR outR logqR)
open Cert.ReferenceIdeal.RefValue (res_main_v9 res_main_v10 res_main_v11 res_main_v19 res_main_v20 res_main_v28 res_main_v29
  res_main_v37 res_main_v38 res_main_v46 res_main_v47 res_main_v55 res_main_v56 res_main_v64 res_main_v65 res_main_v73 res_main_v74)

/-! ## The tile's eight levels as functions of its gate matrix -/

/-- Level 1 of the tile's routing over a gate matrix: the probabilities of the 2 nodes below the 1 of the level before. -/
private def kl1 (g : FVec Ideal S2048x255 .f32) : FVec Ideal S2048x2 .f32 :=
  shapeCast S2048x2 (concatenate S2048x1x2 2
    [⟨S2048x1x1, shapeCast S2048x1x1 (mulf (subf (broadcast S2048x1 (Scalar.ofBits .f32 0x3F800000#32)) (extractStridedSlice S2048x1 ![0, 0] g slices_S2048x255_o0_0_S2048x1)) (broadcast S2048x1 (Scalar.ofBits .f32 0x3F800000#32))) shapeCasts_S2048x1_S2048x1x1⟩,
     ⟨S2048x1x1, shapeCast S2048x1x1 (mulf (extractStridedSlice S2048x1 ![0, 0] g slices_S2048x255_o0_0_S2048x1) (broadcast S2048x1 (Scalar.ofBits .f32 0x3F800000#32))) shapeCasts_S2048x1_S2048x1x1⟩] concatenates_S2048x1x1_S2048x1x1_S2048x1x2_d2) shapeCasts_S2048x1x2_S2048x2

/-- Level 2 of the tile's routing over a gate matrix: the probabilities of the 4 nodes below the 2 of the level before. -/
private def kl2 (g : FVec Ideal S2048x255 .f32) : FVec Ideal S2048x4 .f32 :=
  shapeCast S2048x4 (concatenate S2048x2x2 2
    [⟨S2048x2x1, shapeCast S2048x2x1 (mulf (subf (broadcast S2048x2 (Scalar.ofBits .f32 0x3F800000#32)) (extractStridedSlice S2048x2 ![0, 1] g slices_S2048x255_o0_1_S2048x2)) (kl1 g)) shapeCasts_S2048x2_S2048x2x1⟩,
     ⟨S2048x2x1, shapeCast S2048x2x1 (mulf (extractStridedSlice S2048x2 ![0, 1] g slices_S2048x255_o0_1_S2048x2) (kl1 g)) shapeCasts_S2048x2_S2048x2x1⟩] concatenates_S2048x2x1_S2048x2x1_S2048x2x2_d2) shapeCasts_S2048x2x2_S2048x4

/-- Level 3 of the tile's routing over a gate matrix: the probabilities of the 8 nodes below the 4 of the level before. -/
private def kl3 (g : FVec Ideal S2048x255 .f32) : FVec Ideal S2048x8 .f32 :=
  shapeCast S2048x8 (concatenate S2048x4x2 2
    [⟨S2048x4x1, shapeCast S2048x4x1 (mulf (subf (broadcast S2048x4 (Scalar.ofBits .f32 0x3F800000#32)) (extractStridedSlice S2048x4 ![0, 3] g slices_S2048x255_o0_3_S2048x4)) (kl2 g)) shapeCasts_S2048x4_S2048x4x1⟩,
     ⟨S2048x4x1, shapeCast S2048x4x1 (mulf (extractStridedSlice S2048x4 ![0, 3] g slices_S2048x255_o0_3_S2048x4) (kl2 g)) shapeCasts_S2048x4_S2048x4x1⟩] concatenates_S2048x4x1_S2048x4x1_S2048x4x2_d2) shapeCasts_S2048x4x2_S2048x8

/-- Level 4 of the tile's routing over a gate matrix: the probabilities of the 16 nodes below the 8 of the level before. -/
private def kl4 (g : FVec Ideal S2048x255 .f32) : FVec Ideal S2048x16 .f32 :=
  shapeCast S2048x16 (concatenate S2048x8x2 2
    [⟨S2048x8x1, shapeCast S2048x8x1 (mulf (subf (broadcast S2048x8 (Scalar.ofBits .f32 0x3F800000#32)) (extractStridedSlice S2048x8 ![0, 7] g slices_S2048x255_o0_7_S2048x8)) (kl3 g)) shapeCasts_S2048x8_S2048x8x1⟩,
     ⟨S2048x8x1, shapeCast S2048x8x1 (mulf (extractStridedSlice S2048x8 ![0, 7] g slices_S2048x255_o0_7_S2048x8) (kl3 g)) shapeCasts_S2048x8_S2048x8x1⟩] concatenates_S2048x8x1_S2048x8x1_S2048x8x2_d2) shapeCasts_S2048x8x2_S2048x16

/-- Level 5 of the tile's routing over a gate matrix: the probabilities of the 32 nodes below the 16 of the level before. -/
private def kl5 (g : FVec Ideal S2048x255 .f32) : FVec Ideal S2048x32 .f32 :=
  shapeCast S2048x32 (concatenate S2048x16x2 2
    [⟨S2048x16x1, shapeCast S2048x16x1 (mulf (subf (broadcast S2048x16 (Scalar.ofBits .f32 0x3F800000#32)) (extractStridedSlice S2048x16 ![0, 15] g slices_S2048x255_o0_15_S2048x16)) (kl4 g)) shapeCasts_S2048x16_S2048x16x1⟩,
     ⟨S2048x16x1, shapeCast S2048x16x1 (mulf (extractStridedSlice S2048x16 ![0, 15] g slices_S2048x255_o0_15_S2048x16) (kl4 g)) shapeCasts_S2048x16_S2048x16x1⟩] concatenates_S2048x16x1_S2048x16x1_S2048x16x2_d2) shapeCasts_S2048x16x2_S2048x32

/-- Level 6 of the tile's routing over a gate matrix: the probabilities of the 64 nodes below the 32 of the level before. -/
private def kl6 (g : FVec Ideal S2048x255 .f32) : FVec Ideal S2048x64 .f32 :=
  shapeCast S2048x64 (concatenate S2048x32x2 2
    [⟨S2048x32x1, shapeCast S2048x32x1 (mulf (subf (broadcast S2048x32 (Scalar.ofBits .f32 0x3F800000#32)) (extractStridedSlice S2048x32 ![0, 31] g slices_S2048x255_o0_31_S2048x32)) (kl5 g)) shapeCasts_S2048x32_S2048x32x1⟩,
     ⟨S2048x32x1, shapeCast S2048x32x1 (mulf (extractStridedSlice S2048x32 ![0, 31] g slices_S2048x255_o0_31_S2048x32) (kl5 g)) shapeCasts_S2048x32_S2048x32x1⟩] concatenates_S2048x32x1_S2048x32x1_S2048x32x2_d2) shapeCasts_S2048x32x2_S2048x64

/-- Level 7 of the tile's routing over a gate matrix: the probabilities of the 128 nodes below the 64 of the level before. -/
private def kl7 (g : FVec Ideal S2048x255 .f32) : FVec Ideal S2048x128 .f32 :=
  shapeCast S2048x128 (concatenate S2048x64x2 2
    [⟨S2048x64x1, shapeCast S2048x64x1 (mulf (subf (broadcast S2048x64 (Scalar.ofBits .f32 0x3F800000#32)) (extractStridedSlice S2048x64 ![0, 63] g slices_S2048x255_o0_63_S2048x64)) (kl6 g)) shapeCasts_S2048x64_S2048x64x1⟩,
     ⟨S2048x64x1, shapeCast S2048x64x1 (mulf (extractStridedSlice S2048x64 ![0, 63] g slices_S2048x255_o0_63_S2048x64) (kl6 g)) shapeCasts_S2048x64_S2048x64x1⟩] concatenates_S2048x64x1_S2048x64x1_S2048x64x2_d2) shapeCasts_S2048x64x2_S2048x128

/-- Level 8 of the tile's routing over a gate matrix: the probabilities of the 256 nodes below the 128 of the level before. -/
private def kl8 (g : FVec Ideal S2048x255 .f32) : FVec Ideal S2048x256 .f32 :=
  shapeCast S2048x256 (concatenate S2048x128x2 2
    [⟨S2048x128x1, shapeCast S2048x128x1 (mulf (subf (broadcast S2048x128 (Scalar.ofBits .f32 0x3F800000#32)) (extractStridedSlice S2048x128 ![0, 127] g slices_S2048x255_o0_127_S2048x128)) (kl7 g)) shapeCasts_S2048x128_S2048x128x1⟩,
     ⟨S2048x128x1, shapeCast S2048x128x1 (mulf (extractStridedSlice S2048x128 ![0, 127] g slices_S2048x255_o0_127_S2048x128) (kl7 g)) shapeCasts_S2048x128_S2048x128x1⟩] concatenates_S2048x128x1_S2048x128x1_S2048x128x2_d2) shapeCasts_S2048x128x2_S2048x256

/-- The tile's routing payloads are these levels over its own gate matrix: the second level, -/
private theorem pay4_eq (x0 : Vec Ideal S2048x1024 .f32) (x1 : Vec Ideal S1024x255 .f32) (x2 : Vec Ideal S1x255 .f32) :
    k0_pay4 (F := Ideal) x0 x1 x2 = kl2 (k0_pay2 x0 x1 x2) := rfl

/-- and the eighth. -/
private theorem pay7_eq (x0 : Vec Ideal S2048x1024 .f32) (x1 : Vec Ideal S1024x255 .f32) (x2 : Vec Ideal S1x255 .f32) :
    k0_pay7 (F := Ideal) (k0_pay2 x0 x1 x2) (k0_pay4 x0 x1 x2) (k0_pay5 x0 x1 x2) (k0_pay6 (F := Ideal)) = kl8 (k0_pay2 x0 x1 x2) := rfl

/-! ## Level by level, the tile's rows are the batch's -/

/-- The root's probability is 1 in every row, on both sides. -/
private theorem root_ones {V0 : RV} {t : Fin 32} (r : Fin 2048) (j : Fin 1) :
    (broadcast S2048x1 (Scalar.ofBits (F := Ideal) .f32 0x3F800000#32) : FVec Ideal S2048x1 .f32) (ix2 r j)
      = (res_main_v10 V0 : FVec Ideal ⟨2, ![65536, 1]⟩ .f32) (ix2 (grow t r) j) := rfl

/-- Level 1 agrees: the 2 routing probabilities of row r of the tile are those of row 2048 t + r of the batch. -/
private theorem lvl1 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 2) :
    kl1 g (ix2 r j) = (res_main_v19 V0 : FVec Ideal ⟨2, ![65536, 2]⟩ .f32) (ix2 (grow t r) j) := by
  unfold kl1 res_main_v19 res_main_v11
  exact Cert.Lib.TreeLevel.level_step 2048 65536 255 1 2 0 rfl (by norm_num) (grow t) g (res_main_v9 V0) hg
    (broadcast S2048x1 (Scalar.ofBits .f32 0x3F800000#32)) (res_main_v10 V0) root_ones 0x3F800000#32 _ _ _ _ _ _ _ _ _ r j

/-- Level 2 agrees: the 4 routing probabilities of row r of the tile are those of row 2048 t + r of the batch. -/
private theorem lvl2 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 4) :
    kl2 g (ix2 r j) = (res_main_v28 V0 : FVec Ideal ⟨2, ![65536, 4]⟩ .f32) (ix2 (grow t r) j) := by
  unfold kl2 res_main_v28 res_main_v20
  exact Cert.Lib.TreeLevel.level_step 2048 65536 255 2 4 1 rfl (by norm_num) (grow t) g (res_main_v9 V0) hg
    (kl1 g) (res_main_v19 V0) (lvl1 hg) 0x3F800000#32 _ _ _ _ _ _ _ _ _ r j

/-- Level 3 agrees: the 8 routing probabilities of row r of the tile are those of row 2048 t + r of the batch. -/
private theorem lvl3 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 8) :
    kl3 g (ix2 r j) = (res_main_v37 V0 : FVec Ideal ⟨2, ![65536, 8]⟩ .f32) (ix2 (grow t r) j) := by
  unfold kl3 res_main_v37 res_main_v29
  exact Cert.Lib.TreeLevel.level_step 2048 65536 255 4 8 3 rfl (by norm_num) (grow t) g (res_main_v9 V0) hg
    (kl2 g) (res_main_v28 V0) (lvl2 hg) 0x3F800000#32 _ _ _ _ _ _ _ _ _ r j

/-- Level 4 agrees: the 16 routing probabilities of row r of the tile are those of row 2048 t + r of the batch. -/
private theorem lvl4 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 16) :
    kl4 g (ix2 r j) = (res_main_v46 V0 : FVec Ideal ⟨2, ![65536, 16]⟩ .f32) (ix2 (grow t r) j) := by
  unfold kl4 res_main_v46 res_main_v38
  exact Cert.Lib.TreeLevel.level_step 2048 65536 255 8 16 7 rfl (by norm_num) (grow t) g (res_main_v9 V0) hg
    (kl3 g) (res_main_v37 V0) (lvl3 hg) 0x3F800000#32 _ _ _ _ _ _ _ _ _ r j

/-- Level 5 agrees: the 32 routing probabilities of row r of the tile are those of row 2048 t + r of the batch. -/
private theorem lvl5 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 32) :
    kl5 g (ix2 r j) = (res_main_v55 V0 : FVec Ideal ⟨2, ![65536, 32]⟩ .f32) (ix2 (grow t r) j) := by
  unfold kl5 res_main_v55 res_main_v47
  exact Cert.Lib.TreeLevel.level_step 2048 65536 255 16 32 15 rfl (by norm_num) (grow t) g (res_main_v9 V0) hg
    (kl4 g) (res_main_v46 V0) (lvl4 hg) 0x3F800000#32 _ _ _ _ _ _ _ _ _ r j

/-- Level 6 agrees: the 64 routing probabilities of row r of the tile are those of row 2048 t + r of the batch. -/
private theorem lvl6 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 64) :
    kl6 g (ix2 r j) = (res_main_v64 V0 : FVec Ideal ⟨2, ![65536, 64]⟩ .f32) (ix2 (grow t r) j) := by
  unfold kl6 res_main_v64 res_main_v56
  exact Cert.Lib.TreeLevel.level_step 2048 65536 255 32 64 31 rfl (by norm_num) (grow t) g (res_main_v9 V0) hg
    (kl5 g) (res_main_v55 V0) (lvl5 hg) 0x3F800000#32 _ _ _ _ _ _ _ _ _ r j

/-- Level 7 agrees: the 128 routing probabilities of row r of the tile are those of row 2048 t + r of the batch. -/
private theorem lvl7 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 128) :
    kl7 g (ix2 r j) = (res_main_v73 V0 : FVec Ideal ⟨2, ![65536, 128]⟩ .f32) (ix2 (grow t r) j) := by
  unfold kl7 res_main_v73 res_main_v65
  exact Cert.Lib.TreeLevel.level_step 2048 65536 255 64 128 63 rfl (by norm_num) (grow t) g (res_main_v9 V0) hg
    (kl6 g) (res_main_v64 V0) (lvl6 hg) 0x3F800000#32 _ _ _ _ _ _ _ _ _ r j

/-- Level 8 agrees: the 256 routing probabilities of row r of the tile are those of row 2048 t + r of the batch. -/
private theorem lvl8 {V0 : RV} {t : Fin 32} {g : FVec Ideal S2048x255 .f32}
    (hg : ∀ (r : Fin 2048) (c : Fin 255), g (ix2 r c) = (res_main_v9 V0 : FVec Ideal ⟨2, ![65536, 255]⟩ .f32) (ix2 (grow t r) c))
    (r : Fin 2048) (j : Fin 256) :
    kl8 g (ix2 r j) = probsR V0 (ix2 (grow t r) j) := by
  unfold kl8 probsR res_main_v74
  exact Cert.Lib.TreeLevel.level_step 2048 65536 255 128 256 127 rfl (by norm_num) (grow t) g (res_main_v9 V0) hg
    (kl7 g) (res_main_v73 V0) (lvl7 hg) 0x3F800000#32 _ _ _ _ _ _ _ _ _ r j

/-- The tile's stored leaf mixture at entry (r, q) is the reference's result at row 2048 t + r: the routing
    probabilities agree level by level (each level interleaves (1 - p) · parent and p · parent over the same gates),
    and both contract them against the same leaf values. -/
theorem tile_out {V0 : RV} {t : Fin 32} {x0 : Vec Ideal S2048x1024 .f32} {x1 : Vec Ideal S1024x255 .f32}
    {x2 : Vec Ideal S1x255 .f32} {x3 : Vec Ideal S256x128 .f32} (h : TileOf V0 t x0 x1 x2 x3) (r : Fin 2048) (q : Fin 128) :
    k0_pay1 (F := Ideal) (k0_pay7 (k0_pay2 x0 x1 x2) (k0_pay4 x0 x1 x2) (k0_pay5 x0 x1 x2) (k0_pay6 (F := Ideal))) x3 (ix2 r q)
      = outR V0 (ix2 (grow t r) q) := by
  have hg : ∀ (r : Fin 2048) (c : Fin 255), k0_pay2 (F := Ideal) x0 x1 x2 (ix2 r c)
      = (res_main_v9 V0 : FVec Ideal ⟨2, ![65536, 255]⟩ .f32) (ix2 (grow t r) c) := fun r c => tile_gates h r c
  rw [pay7_eq x0 x1 x2]
  unfold k0_pay1 outR
  refine (Cert.Lib.PlainDot.matmul_zero_apply 2048 256 128 none _ _ r q).trans ?_
  refine Eq.trans ?_ (Cert.Lib.PlainDot.dotGeneral_apply 65536 256 128 none _ (probsR V0) (argL V0) (grow t r) q).symm
  refine Finset.sum_congr rfl fun j _ => ?_
  rw [truncf_apply, truncf_apply, lvl8 hg r j, h.leaf j q]

end Cert.KernelIdeal.Tile

end
-- ==== Proof.RegTail.lean ====
/-
  The regulariser from the per-tile sums is the reference's: summing node n's clamped log term over the 2048 rows of
  each of the 32 tiles and then over the tiles is summing it over all 65536 rows (a sum regrouped), and scaling by the
  exact dyadic 2^-16 is dividing by 65536 on every extended real.
-/
import proofs.«146501_j2989297238563_1_alg».proof.Proof.TileDefs
import Idealize.ShloMosaic.Lib.Pipeline.Value
import Idealize.ShloMosaic.PureOps.Ideal.Laws
import Idealize.ShloMosaic.Lib.IdealHost
import Mathlib.Algebra.BigOperators.Fin
import Mathlib.Logic.Equiv.Fin.Basic

set_option maxRecDepth 8192

noncomputable section

namespace Cert.KernelIdeal.Tile

open Cert.KernelIdeal Cert.KernelIdeal.Gen Idealize.ShloMosaic Idealize.ShloMosaic.ValueIdx
open Cert.ReferenceIdeal.RefValue (logqR meanR weightsR regOfR regR)

/-- A sum over the rows of each tile and then over the tiles is the sum over all the rows: the pair (t, r) runs over
    Fin 32 × Fin 2048, which row 2048 t + r maps one to one onto Fin 65536. -/
private theorem sum_grow {M : Type} [AddCommMonoid M] (f : Fin 65536 → M) :
    ∑ t : Fin 32, ∑ r : Fin 2048, f (grow t r) = ∑ R : Fin 65536, f R := by
  rw [← Fintype.sum_prod_type']
  refine Fintype.sum_equiv (finProdFinEquiv (m := 32) (n := 2048)) _ _ ?_
  rintro ⟨t, r⟩
  refine congrArg f (Fin.ext ?_)
  simp [finProdFinEquiv]
  omega

/-- The pattern 0x37800000 is the dyadic 2^-16 = 1 / 65536. -/
private theorem scale_eq : Ideal.ofBits .f32 0x37800000#32 = (((1 : ℝ) / 65536 : ℝ) : EReal) := by
  simp [Ideal.ofBits, Ideal.ieee, -EReal.coe_mul]; norm_num

/-- The pattern 0x47800000 is 2^16 = 65536. -/
private theorem count_eq : Ideal.ofBits .f32 0x47800000#32 = ((65536 : ℝ) : EReal) := by
  simp [Ideal.ofBits, Ideal.ieee, -EReal.coe_mul]; norm_num

/-- The host sum over the tile axis of a [32, 1, 255] array from zero, at (0, n): the sum over the 32 tiles. -/
private theorem tileSum_apply (P : FVec Ideal S32x1x255 .f32) (h' : S32x1x255.ReducesTo [0] S1x255) (hu : 0 < S_.numel)
    (n : Fin 255) :
    Host.reduceAdd P (constant S_ .f32 0x00000000#32) h' hu (ix2 (0 : Fin 1) n) = ∑ t : Fin 32, P (ix3 t (0 : Fin 1) n) := by
  have h : S32x1x255.Reduces [0] S1x255 := by decide
  rw [hostReduceAdd_apply, Ideal.hostReduceAdd_single h' h, constant_apply, Ideal.ofBits_zero_f32, zero_add]
  refine Finset.sum_congr rfl fun t _ => congrArg P ?_
  funext d
  match d with
  | ⟨0, _⟩ => rfl
  | ⟨1, _⟩ => rfl
  | ⟨2, _⟩ => rfl

/-- The host sum over the row axis of a [65536, 255] array from zero, at n: the sum over the 65536 rows. -/
private theorem rowSum_apply (L : FVec Ideal Cert.ReferenceIdeal.S65536x255 .f32)
    (h' : Cert.ReferenceIdeal.S65536x255.ReducesTo [0] Cert.ReferenceIdeal.S255) (hu : 0 < Cert.ReferenceIdeal.S_.numel)
    (n : Fin 255) :
    Host.reduceAdd L (constant Cert.ReferenceIdeal.S_ .f32 0x00000000#32) h' hu (ix1 n) = ∑ R : Fin 65536, L (ix2 R n) := by
  have h : Cert.ReferenceIdeal.S65536x255.Reduces [0] Cert.ReferenceIdeal.S255 := by decide
  rw [hostReduceAdd_apply, Ideal.hostReduceAdd_single h' h, constant_apply, Ideal.ofBits_zero_f32, zero_add]
  refine Finset.sum_congr rfl fun t _ => congrArg L ?_
  funext d
  match d with
  | ⟨0, _⟩ => rfl
  | ⟨1, _⟩ => rfl

/-- The scaled sum of the per-tile sums is the reference's mean: at node n both are the sum of the clamped log term
    over all 65536 rows, times 1 / 65536 on one side and divided by 65536 on the other. -/
private theorem meanK_partR (V0 : RV) : meanK (partR V0) = meanR V0 := by
  funext i
  obtain ⟨n, rfl⟩ : ∃ n, i = ix1 n := ⟨i 0, eq_ix1 i⟩
  have hL : meanK (partR V0) (ix1 n)
      = (∑ R : Fin 65536, logqR V0 (ix2 R n)) * (((1 : ℝ) / 65536 : ℝ) : EReal) := by
    unfold meanK
    rw [mulf_apply, broadcastInDim_scalar_apply, constant_apply, scale_eq,
      shapeCast_apply _ _ (ix1 n) (ix2 (0 : Fin 1) n) (by rw [Shape.rowMajor_val_one, Shape.rowMajor_val_two]; simp),
      tileSum_apply, ← sum_grow]
    rfl
  have hR : meanR V0 (ix1 n) = Ideal.div (∑ R : Fin 65536, logqR V0 (ix2 R n)) ((65536 : ℝ) : EReal) := by
    unfold meanR
    rw [hostDivf_apply, broadcastInDim_scalar_apply, constant_apply, count_eq, rowSum_apply]
  rw [hL, hR, Ideal.div_coe (by norm_num)]

theorem regK_partR (V0 : RV) : regK (partR V0) = regR V0 := by
  unfold regK regR
  rw [meanK_partR]
  rfl

end Cert.KernelIdeal.Tile

end
-- ==== Proof.Final.lean ====
/-
  From the frame run to the idealized kernel's two results as functions of the argument arrays: each input block is
  the matching rows of its array, so tile t's stored values are rows 2048 t … of the reference's result and the
  per-tile column sums; the 32 write-backs cover both output arrays; the host lines after the launch turn the
  per-tile sums into the regulariser.
-/
import proofs.«146501_j2989297238563_1_alg».proof.Proof.KernelIdealFrame
import proofs.«146501_j2989297238563_1_alg».proof.Proof.Blocks
import proofs.«146501_j2989297238563_1_alg».proof.Proof.TileOut
import proofs.«146501_j2989297238563_1_alg».proof.Proof.RegTail
import Idealize.ShloMosaic.Lib.Pipeline.Value
import Idealize.ShloMosaic.Lib.StableHlo.Run

set_option maxRecDepth 8192

noncomputable section

namespace Cert.KernelIdeal.Final

open Cert.KernelIdeal Cert.KernelIdeal.Gen Cert.KernelIdeal.Frm Cert.KernelIdeal.Tile
open Idealize.ShloMosaic Idealize.ShloMosaic.TcCoe Idealize.SL.Sem Idealize.ShloMosaic.ValueIdx
open Cert.ReferenceIdeal.RefValue (argX argW argB argL outR regR)

variable (m : (ℓ : Loc nD τ sig) → Buf (Elt Ideal) ℓ) (ρ : Dev nD → PrngReg)

/-! ## Where the output blocks sit -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- The block index of each output window at grid point t: tile t along the leading axis, 0 along the others. -/
private theorem idx_out : ∀ t : Fin cfg0.N, win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- An index of the first result is in point t's block iff each coordinate is in the block's range on its axis. -/
private theorem mem_blk4 (t : Fin cfg0.N) (i : S65536x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v1_0).slice (win0_4.rect t)).set ↔ _
  rw [View.set_slice_whole, Rect.mem_set_unit]
  exact Iff.rfl

/-- An index of the per-tile sums is in point t's block iff each coordinate is in the block's range on its axis. -/
private theorem mem_blk5 (t : Fin cfg0.N) (i : S32x1x255.Idx) :
    i ∈ ((cfg0.win 5).blk t).view.set ↔ ∀ a : Fin 3, win0_5.index t a * S1x1x255.size a ≤ (i a).val ∧ (i a).val < win0_5.index t a * S1x1x255.size a + S1x1x255.size a := by
  show i ∈ ((View.whole main_v1_1).slice (win0_5.rect t)).set ↔ _
  rw [View.set_slice_whole, Rect.mem_set_unit]
  exact Iff.rfl

/-- Every row of the first result lies in the block of the point its tile is. -/
private theorem cover4 (i : S65536x128.Idx) :
    ∃ t : Fin cfg0.N, (cfg0.win 4).flush t = true ∧ i ∈ ((cfg0.win 4).blk t).view.set := by
  have hi0 : (i 0).val < 65536 := (i 0).isLt
  have hi1 : (i 1).val < 128 := (i 1).isLt
  obtain ⟨t, ht⟩ : ∃ t : Fin cfg0.N, t.val = (i 0).val / 2048 :=
    ⟨⟨(i 0).val / 2048, by rw [show cfg0.N = 32 from N_0]; omega⟩, rfl⟩
  obtain ⟨e0, e1, -, -, -⟩ := idx_out t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; rw [e0, ht]; omega
  | ⟨1, _⟩ => show win0_4.index t (1 : Fin 2) * 128 ≤ (i 1).val ∧ (i 1).val < win0_4.index t (1 : Fin 2) * 128 + 128; rw [e1]; omega

/-- Every entry of the per-tile sums lies in the block of the point its tile is. -/
private theorem cover5 (i : S32x1x255.Idx) :
    ∃ t : Fin cfg0.N, (cfg0.win 5).flush t = true ∧ i ∈ ((cfg0.win 5).blk t).view.set := by
  have hi0 : (i 0).val < 32 := (i 0).isLt
  have hi1 : (i 1).val < 1 := (i 1).isLt
  have hi2 : (i 2).val < 255 := (i 2).isLt
  obtain ⟨t, ht⟩ : ∃ t : Fin cfg0.N, t.val = (i 0).val :=
    ⟨⟨(i 0).val, by rw [show cfg0.N = 32 from N_0]; omega⟩, rfl⟩
  obtain ⟨-, -, e0, e1, e2⟩ := idx_out t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 255 ≤ (i 2).val ∧ (i 2).val < win0_5.index t (2 : Fin 3) * 255 + 255; rw [e2]; omega

/-! ## What each point writes back -/

/-- The stored leaf mixture of a tile at entry j is the reference's first result at the entry i of the whole array
    that j is: row 2048 t + r, the same column. -/
private theorem out_at {V0 : RV} {t : Fin 32} {x0 : Vec Ideal S2048x1024 .f32} {x1 : Vec Ideal S1024x255 .f32}
    {x2 : Vec Ideal S1x255 .f32} {x3 : Vec Ideal S256x128 .f32} (h : TileOf V0 t x0 x1 x2 x3)
    (j : S2048x128.Idx) (i : S65536x128.Idx) (h0 : (i 0).val = t.val * 2048 + (j 0).val) (h1 : (i 1).val = (j 1).val) :
    k0_pay1 (F := Ideal) (k0_pay7 (k0_pay2 x0 x1 x2) (k0_pay4 x0 x1 x2) (k0_pay5 x0 x1 x2) (k0_pay6 (F := Ideal))) x3 j
      = outR V0 i := by
  refine ((congrArg _ (eq_ix2 j)).trans (tile_out h (j 0) (j 1))).trans (congrArg (outR V0) ?_)
  funext a
  apply Fin.ext
  match a with
  | ⟨0, _⟩ => exact h0.symm
  | ⟨1, _⟩ => exact h1.symm

/-- The stored column sums of a tile at entry j are the per-tile sums at the entry i of the whole array that j is:
    tile t, the same node. -/
private theorem sum_at {V0 : RV} {t : Fin 32} {x0 : Vec Ideal S2048x1024 .f32} {x1 : Vec Ideal S1024x255 .f32}
    {x2 : Vec Ideal S1x255 .f32} {x3 : Vec Ideal S256x128 .f32} (h : TileOf V0 t x0 x1 x2 x3)
    (j : S1x1x255.Idx) (i : S32x1x255.Idx) (h0 : (i 0).val = t.val) (h2 : (i 2).val = (j 2).val) :
    k0_pay3 (F := Ideal) x0 x1 x2 j = partR V0 i := by
  have hj : j = ix3 (0 : Fin 1) (0 : Fin 1) (j 2) := by
    funext a
    apply Fin.ext
    match a with
    | ⟨0, _⟩ => have : (j 0).val < 1 := (j 0).isLt; show (j 0).val = 0; omega
    | ⟨1, _⟩ => have : (j 1).val < 1 := (j 1).isLt; show (j 1).val = 0; omega
    | ⟨2, _⟩ => rfl
  have e0 : i 0 = t := Fin.ext h0
  have e2 : i 2 = j 2 := Fin.ext h2
  refine ((congrArg _ hj).trans (tile_logsum h (j 2))).trans ?_
  show _ = ∑ r : Fin 2048, Cert.ReferenceIdeal.RefValue.logqR V0 (ix2 (grow (i 0) r) (i 2))
  rw [e0, e2]

/-- What point t writes back to the first result is the block of the reference's first result there. -/
private theorem flushed4_eq (c : Dev nD) (V0 : RV) (hag : Agrees m c V0) (t : Fin cfg0.N) :
    (dats m 0 c).flushed 4 t = ((cfg0.win 4).blk t).view.read (Elt Ideal) (outR V0) := by
  show (cfg0.win 4).cut (grid0.coords t) ((dats m 0 c).after 4 t) = _
  rw [after0_4]
  unfold out0_4 gates
  rw [View.canon_unit_zero hz2]
  simp only [View.ld_unit_zero (S := S2048x1024) hz2, View.ld_unit_zero (S := S1024x255) hz2,
    View.ld_unit_zero (S := S1x255) hz2, View.ld_unit_zero (S := S256x128) hz2]
  obtain ⟨e0, e1, -, -, -⟩ := idx_out t
  funext j
  show k0_pay1 (F := Ideal) (k0_pay7 (k0_pay2 (iblk m c 0 t) (iblk m c 1 t) (iblk m c 2 t)) (k0_pay4 (iblk m c 0 t) (iblk m c 1 t) (iblk m c 2 t)) (k0_pay5 (iblk m c 0 t) (iblk m c 1 t) (iblk m c 2 t)) (k0_pay6 (F := Ideal))) (iblk m c 3 t) j
    = outR V0 (((cfg0.win 4).blk t).view.emb j)
  refine out_at (tile_of m c V0 hag t) j (((cfg0.win 4).blk t).view.emb j) ?_ ?_
  · show win0_4.index t (0 : Fin 2) * 2048 + 1 * (j 0).val = t.val * 2048 + (j 0).val
    rw [e0]; omega
  · show win0_4.index t (1 : Fin 2) * 128 + 1 * (j 1).val = (j 1).val
    rw [e1]; omega

/-- What point t writes back to the per-tile sums is the block of the column sums of the clamped log term there. -/
private theorem flushed5_eq (c : Dev nD) (V0 : RV) (hag : Agrees m c V0) (t : Fin cfg0.N) :
    (dats m 0 c).flushed 5 t = ((cfg0.win 5).blk t).view.read (Elt Ideal) (partR V0) := by
  show (cfg0.win 5).cut (grid0.coords t) ((dats m 0 c).after 5 t) = _
  rw [after0_5]
  unfold out0_5
  rw [View.canon_unit_zero hz3]
  simp only [View.ld_unit_zero (S := S2048x1024) hz2, View.ld_unit_zero (S := S1024x255) hz2,
    View.ld_unit_zero (S := S1x255) hz2]
  obtain ⟨-, -, e0, e1, e2⟩ := idx_out t
  funext j
  show k0_pay3 (F := Ideal) (iblk m c 0 t) (iblk m c 1 t) (iblk m c 2 t) j
    = partR V0 (((cfg0.win 5).blk t).view.emb j)
  refine sum_at (tile_of m c V0 hag t) j (((cfg0.win 5).blk t).view.emb j) ?_ ?_
  · show win0_5.index t (0 : Fin 3) * 1 + 1 * (j 0).val = t.val
    have hj : (j 0).val < 1 := (j 0).isLt
    rw [e0]; omega
  · show win0_5.index t (2 : Fin 3) * 255 + 1 * (j 2).val = (j 2).val
    rw [e2]; omega

/-! ## The two output arrays after the launch -/

/-- The first result's array after the 32 write-backs is the reference's first result. -/
private theorem final4 (c : Dev nD) (V0 : RV) (hag : Agrees m c V0) : (dats m 0 c).arrAt 4 cfg0.N = outR V0 :=
  (dats m 0 c).arrAt_eq_of_cover 4 (outR V0) (fun t _ => flushed4_eq m c V0 hag t) cover4

/-- The per-tile sums' array after the 32 write-backs holds every tile's column sums. -/
private theorem final5 (c : Dev nD) (V0 : RV) (hag : Agrees m c V0) : (dats m 0 c).arrAt 5 cfg0.N = partR V0 :=
  (dats m 0 c).arrAt_eq_of_cover 5 (partR V0) (fun t _ => flushed5_eq m c V0 hag t) cover5

/-! ## The host lines after the launch -/

/-- The 29 host lines after the launch leave, in the second result's buffer, the regulariser computed from whatever the
    per-tile sums' array holds when they start. -/
private theorem tail_eq (W : Valuation τ sig (Elt Ideal)) :
    StableHlo.after (hostOps1 (F := Ideal)) W (Proc.devRef .tc main_v18) = regK (W (Proc.devRef .tc main_v1_1)) := by
  after_results_simp <;> rfl

/-- After the launch and the host lines the second result's buffer holds the reference's regulariser. -/
private theorem tail18 (c : Dev nD) (V0 : RV) (hag : Agrees m c V0) :
    Pipeline.afterTail₀ cfgs (dats m) 0 (Frm.V0 m) [hostOps1] c main_v18 = regR V0 := by
  unfold Pipeline.afterTail₀
  show StableHlo.after hostOps1 _ (Proc.devRef .tc main_v18) = _
  refine (tail_eq _).trans ?_
  exact (congrArg regK ((Pipeline.withArrays_arr spec0 launch0.win.arr_inj c _ _ 5).trans (final5 m c V0 hag))).trans
    (regK_partR V0)

/-! ## The run -/

/-- The idealized kernel's run with its two results named: the leaf mixture is the reference's first result and the
    regulariser its second, as functions of the same argument arrays; the arguments end as launched. -/
theorem run_values (V0 : Dev nD → RV) (hag : ∀ c, Agrees m c (V0 c)) :
    θ_run defs (onTc (τ := τ) (main (F := Ideal))) ⟨m, fun _ => 0, ρ⟩ (fun r => ∀ c : Dev nD,
      r.2.mem ((c.tc : Thread nD τ).loc main_v1_0) = outR (V0 c)
      ∧ r.2.mem ((c.tc : Thread nD τ).loc main_v18) = regR (V0 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c (V0 c) (hag c)),
      ((h c).2 main_v18 (Pipeline.mem_restRefs_of main_v18 (by decide) (by decide))).trans (tail18 m c (V0 c) (hag c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (Frm.run_main (F := Ideal) m ρ)

end Cert.KernelIdeal.Final

end
-- ==== Proof.lean ====
/-
  The certificate: the tree-routing kernel (per 2048-row tile: gate probabilities by a matrix product and a logistic,
  eight levels of soft routing, the leaf mixture by a second matrix product, and the tile's column sums of the clamped
  log term) against the plain reference.

  Over the extended reals the two programs are one function of the arguments. A change of float format is the
  identity, a matrix product into a zero accumulator is the host's contraction, the kernel's logistic is the host's
  1 / (1 + exp (-z)), and every other operation of a tile acts on each row by itself, so tile t's stored rows are rows
  2048 t … 2048 t + 2047 of the reference's result. For the regulariser the reference's column sum over 65536 rows is
  the sum over the 32 tiles of the tiles' column sums, and its division by 65536 is the kernel's product with the
  exact dyadic 2^-16. Neither law needs the inputs to be finite, so the precondition is never opened.

  The three frames: both kernel programs by the pipeline's frame run around one region (the same text at the two float
  instances); the reference's is its run with the results dropped. The idealization rewrote nothing.
-/
import proofs.«146501_j2989297238563_1_alg».proof.Defs
import proofs.«146501_j2989297238563_1_alg».proof.Proof.Gen.Kernel
import proofs.«146501_j2989297238563_1_alg».proof.Proof.Gen.KernelIdeal
import proofs.«146501_j2989297238563_1_alg».proof.Proof.Gen.ReferenceIdeal
import proofs.«146501_j2989297238563_1_alg».proof.Proof.Gen.Pre_finite_inputs
import proofs.«146501_j2989297238563_1_alg».proof.Proof.KernelFrame
import proofs.«146501_j2989297238563_1_alg».proof.Proof.KernelIdealFrame
import proofs.«146501_j2989297238563_1_alg».proof.Proof.RefTerms
import proofs.«146501_j2989297238563_1_alg».proof.Proof.RefRun
import proofs.«146501_j2989297238563_1_alg».proof.Proof.Final
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Frm.frame m ρ

theorem frame_ki : @Cert.frame_KernelIdeal Cert.KernelIdeal.Gen.facts Cert.Pre_finite_inputs.Gen.facts :=
  fun m ρ _ => Cert.KernelIdeal.Frm.frame m ρ

/-- The reference has no kernel: its frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.RefValue.run_named m ρ)

/-- Both runs end with the reference's two result terms read at the reference's argument arrays, which agree with the
    kernel's. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.RefValue.outR (StableHlo.launchContents m' c),
    fun c => Cert.ReferenceIdeal.RefValue.regR (StableHlo.launchContents m' c),
    Cert.KernelIdeal.Final.run_values m ρ (fun c => StableHlo.launchContents m' c)
      (fun c => ⟨(hagree c).1, (hagree c).2.1, (hagree c).2.2.1, (hagree c).2.2.2⟩), ?_⟩
  exact Cert.ReferenceIdeal.RefValue.run_named m' ρ'

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
